-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x64x64 : Shape := ⟨4, ![32, 256, 64, 64]⟩
abbrev S64x1 : Shape := ⟨2, ![64, 1]⟩
abbrev S1x64 : Shape := ⟨2, ![1, 64]⟩
abbrev S_ : Shape := ⟨0, ![]⟩

class Facts : Prop where
  bcast_S_S32x256x64x64 : S_.BroadcastsInDim S32x256x64x64 (![] : Fin 0 → Fin S32x256x64x64.rank)
  reducesTo_S32x256x64x64_S_d0_1_2_3 : S32x256x64x64.ReducesTo [0, 1, 2, 3] S_
  h_S_ : 0 < S_.numel
  bcast_S_S64x1 : S_.BroadcastsInDim S64x1 (![] : Fin 0 → Fin S64x1.rank)
  reducesTo_S64x1_S_d0_1 : S64x1.ReducesTo [0, 1] S_
  bcast_S_S1x64 : S_.BroadcastsInDim S1x64 (![] : Fin 0 → Fin S1x64.rank)
  reducesTo_S1x64_S_d0_1 : S1x64.ReducesTo [0, 1] S_

variable [Facts]

def fn_part3 {F : FTy → Type} [FloatOps F] (main_arg11 : FVec F S1x64 .f32) (main_arg12 : FVec F S1x64 .f32) (main_v48 : IVec S_ 1) (main_v49 : FVec F S1x64 .f32) (main_v50 : FVec F S1x64 .f32) : IVec S_ 1 :=
  let main_v51 : IVec S1x64 1 := cmpf .olt main_v49 main_v50
  let main_c_19 : IVec S_ 1 := constantI S_ 1 1#1
  let main_v52 : IVec S_ 1 := (fun x v => Host.reduce IntOp.andi x v reducesTo_S1x64_S_d0_1 h_S_) main_v51 main_c_19
  let main_v53 : IVec S_ 1 := andi main_v48 main_v52
  let main_v54 : FVec F S1x64 .f32 := Host.absf main_arg11
  let main_cst_20 : FVec F S_ .f32 := constant S_ .f32 0x7F800000#32
  let main_v55 : FVec F S1x64 .f32 := broadcastInDim S1x64 ![] bcast_S_S1x64 main_cst_20
  let main_v56 : IVec S1x64 1 := cmpf .olt main_v54 main_v55
  let main_c_21 : IVec S_ 1 := constantI S_ 1 1#1
  let main_v57 : IVec S_ 1 := (fun x v => Host.reduce IntOp.andi x v reducesTo_S1x64_S_d0_1 h_S_) main_v56 main_c_21
  let main_v58 : IVec S_ 1 := andi main_v53 main_v57
  let main_v59 : FVec F S1x64 .f32 := Host.absf main_arg12
  let main_cst_22 : FVec F S_ .f32 := constant S_ .f32 0x7F800000#32
  let main_v60 : FVec F S1x64 .f32 := broadcastInDim S1x64 ![] bcast_S_S1x64 main_cst_22
  let main_v61 : IVec S1x64 1 := cmpf .olt main_v59 main_v60
  let main_c_23 : IVec S_ 1 := constantI S_ 1 1#1
  let main_v62 : IVec S_ 1 := (fun x v => Host.reduce IntOp.andi x v reducesTo_S1x64_S_d0_1 h_S_) main_v61 main_c_23
  let main_v63 : IVec S_ 1 := andi main_v58 main_v62
  main_v63

def fn_part2 {F : FTy → Type} [FloatOps F] (main_arg7 : FVec F S64x1 .f32) (main_arg8 : FVec F S64x1 .f32) (main_arg9 : FVec F S64x1 .f32) (main_arg10 : FVec F S1x64 .f32) (main_arg11 : FVec F S1x64 .f32) (main_arg12 : FVec F S1x64 .f32) (main_v33 : IVec S_ 1) : IVec S_ 1 :=
  let main_v34 : FVec F S64x1 .f32 := Host.absf main_arg7
  let main_cst_12 : FVec F S_ .f32 := constant S_ .f32 0x7F800000#32
  let main_v35 : FVec F S64x1 .f32 := broadcastInDim S64x1 ![] bcast_S_S64x1 main_cst_12
  let main_v36 : IVec S64x1 1 := cmpf .olt main_v34 main_v35
  let main_c_13 : IVec S_ 1 := constantI S_ 1 1#1
  let main_v37 : IVec S_ 1 := (fun x v => Host.reduce IntOp.andi x v reducesTo_S64x1_S_d0_1 h_S_) main_v36 main_c_13
  let main_v38 : IVec S_ 1 := andi main_v33 main_v37
  let main_v39 : FVec F S64x1 .f32 := Host.absf main_arg8
  let main_cst_14 : FVec F S_ .f32 := constant S_ .f32 0x7F800000#32
  let main_v40 : FVec F S64x1 .f32 := broadcastInDim S64x1 ![] bcast_S_S64x1 main_cst_14
  let main_v41 : IVec S64x1 1 := cmpf .olt main_v39 main_v40
  let main_c_15 : IVec S_ 1 := constantI S_ 1 1#1
  let main_v42 : IVec S_ 1 := (fun x v => Host.reduce IntOp.andi x v reducesTo_S64x1_S_d0_1 h_S_) main_v41 main_c_15
  let main_v43 : IVec S_ 1 := andi main_v38 main_v42
  let main_v44 : FVec F S64x1 .f32 := Host.absf main_arg9
  let main_cst_16 : FVec F S_ .f32 := constant S_ .f32 0x7F800000#32
  let main_v45 : FVec F S64x1 .f32 := broadcastInDim S64x1 ![] bcast_S_S64x1 main_cst_16
  let main_v46 : IVec S64x1 1 := cmpf .olt main_v44 main_v45
  let main_c_17 : IVec S_ 1 := constantI S_ 1 1#1
  let main_v47 : IVec S_ 1 := (fun x v => Host.reduce IntOp.andi x v reducesTo_S64x1_S_d0_1 h_S_) main_v46 main_c_17
  let main_v48 : IVec S_ 1 := andi main_v43 main_v47
  let main_v49 : FVec F S1x64 .f32 := Host.absf main_arg10
  let main_cst_18 : FVec F S_ .f32 := constant S_ .f32 0x7F800000#32
  let main_v50 : FVec F S1x64 .f32 := broadcastInDim S1x64 ![] bcast_S_S1x64 main_cst_18
  fn_part3 (F := F) main_arg11 main_arg12 main_v48 main_v49 main_v50

def fn_part1 {F : FTy → Type} [FloatOps F] (main_arg4 : FVec F S1x64 .f32) (main_arg5 : FVec F S1x64 .f32) (main_arg6 : FVec F S1x64 .f32) (main_arg7 : FVec F S64x1 .f32) (main_arg8 : FVec F S64x1 .f32) (main_arg9 : FVec F S64x1 .f32) (main_arg10 : FVec F S1x64 .f32) (main_arg11 : FVec F S1x64 .f32) (main_arg12 : FVec F S1x64 .f32) (main_v13 : IVec S_ 1) (main_v16 : IVec S64x1 1) : IVec S_ 1 :=
  let main_c_5 : IVec S_ 1 := constantI S_ 1 1#1
  let main_v17 : IVec S_ 1 := (fun x v => Host.reduce IntOp.andi x v reducesTo_S64x1_S_d0_1 h_S_) main_v16 main_c_5
  let main_v18 : IVec S_ 1 := andi main_v13 main_v17
  let main_v19 : FVec F S1x64 .f32 := Host.absf main_arg4
  let main_cst_6 : FVec F S_ .f32 := constant S_ .f32 0x7F800000#32
  let main_v20 : FVec F S1x64 .f32 := broadcastInDim S1x64 ![] bcast_S_S1x64 main_cst_6
  let main_v21 : IVec S1x64 1 := cmpf .olt main_v19 main_v20
  let main_c_7 : IVec S_ 1 := constantI S_ 1 1#1
  let main_v22 : IVec S_ 1 := (fun x v => Host.reduce IntOp.andi x v reducesTo_S1x64_S_d0_1 h_S_) main_v21 main_c_7
  let main_v23 : IVec S_ 1 := andi main_v18 main_v22
  let main_v24 : FVec F S1x64 .f32 := Host.absf main_arg5
  let main_cst_8 : FVec F S_ .f32 := constant S_ .f32 0x7F800000#32
  let main_v25 : FVec F S1x64 .f32 := broadcastInDim S1x64 ![] bcast_S_S1x64 main_cst_8
  let main_v26 : IVec S1x64 1 := cmpf .olt main_v24 main_v25
  let main_c_9 : IVec S_ 1 := constantI S_ 1 1#1
  let main_v27 : IVec S_ 1 := (fun x v => Host.reduce IntOp.andi x v reducesTo_S1x64_S_d0_1 h_S_) main_v26 main_c_9
  let main_v28 : IVec S_ 1 := andi main_v23 main_v27
  let main_v29 : FVec F S1x64 .f32 := Host.absf main_arg6
  let main_cst_10 : FVec F S_ .f32 := constant S_ .f32 0x7F800000#32
  let main_v30 : FVec F S1x64 .f32 := broadcastInDim S1x64 ![] bcast_S_S1x64 main_cst_10
  let main_v31 : IVec S1x64 1 := cmpf .olt main_v29 main_v30
  let main_c_11 : IVec S_ 1 := constantI S_ 1 1#1
  let main_v32 : IVec S_ 1 := (fun x v => Host.reduce IntOp.andi x v reducesTo_S1x64_S_d0_1 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S32x256x64x64 .f32) (main_arg1 : FVec F S64x1 .f32) (main_arg2 : FVec F S64x1 .f32) (main_arg3 : FVec F S64x1 .f32) (main_arg4 : FVec F S1x64 .f32) (main_arg5 : FVec F S1x64 .f32) (main_arg6 : FVec F S1x64 .f32) (main_arg7 : FVec F S64x1 .f32) (main_arg8 : FVec F S64x1 .f32) (main_arg9 : FVec F S64x1 .f32) (main_arg10 : FVec F S1x64 .f32) (main_arg11 : FVec F S1x64 .f32) (main_arg12 : FVec F S1x64 .f32) : IVec S_ 1 :=
  let main_v0 : FVec F S32x256x64x64 .f32 := Host.absf main_arg0
  let main_cst : FVec F S_ .f32 := constant S_ .f32 0x7F800000#32
  let main_v1 : FVec F S32x256x64x64 .f32 := broadcastInDim S32x256x64x64 ![] bcast_S_S32x256x64x64 main_cst
  let main_v2 : IVec S32x256x64x64 1 := cmpf .olt main_v0 main_v1
  let main_c : IVec S_ 1 := constantI S_ 1 1#1
  let main_v3 : IVec S_ 1 := (fun x v => Host.reduce IntOp.andi x v reducesTo_S32x256x64x64_S_d0_1_2_3 h_S_) main_v2 main_c
  let main_v4 : FVec F S64x1 .f32 := Host.absf main_arg1
  let main_cst_0 : FVec F S_ .f32 := constant S_ .f32 0x7F800000#32
  let main_v5 : FVec F S64x1 .f32 := broadcastInDim S64x1 ![] bcast_S_S64x1 main_cst_0
  let main_v6 : IVec S64x1 1 := cmpf .olt main_v4 main_v5
  let main_c_1 : IVec S_ 1 := constantI S_ 1 1#1
  let main_v7 : IVec S_ 1 := (fun x v => Host.reduce IntOp.andi x v reducesTo_S64x1_S_d0_1 h_S_) main_v6 main_c_1
  let main_v8 : IVec S_ 1 := andi main_v3 main_v7
  let main_v9 : FVec F S64x1 .f32 := Host.absf main_arg2
  let main_cst_2 : FVec F S_ .f32 := constant S_ .f32 0x7F800000#32
  let main_v10 : FVec F S64x1 .f32 := broadcastInDim S64x1 ![] bcast_S_S64x1 main_cst_2
  let main_v11 : IVec S64x1 1 := cmpf .olt main_v9 main_v10
  let main_c_3 : IVec S_ 1 := constantI S_ 1 1#1
  let main_v12 : IVec S_ 1 := (fun x v => Host.reduce IntOp.andi x v reducesTo_S64x1_S_d0_1 h_S_) main_v11 main_c_3
  let main_v13 : IVec S_ 1 := andi main_v8 main_v12
  let main_v14 : FVec F S64x1 .f32 := Host.absf main_arg3
  let main_cst_4 : FVec F S_ .f32 := constant S_ .f32 0x7F800000#32
  let main_v15 : FVec F S64x1 .f32 := broadcastInDim S64x1 ![] bcast_S_S64x1 main_cst_4
  let main_v16 : IVec S64x1 1 := cmpf .olt main_v14 main_v15
  fn_part1 (F := F) main_arg4 main_arg5 main_arg6 main_arg7 main_arg8 main_arg9 main_arg10 main_arg11 main_arg12 main_v13 main_v16
-- ==== Kernel.lean ====
abbrev S32x256x64x64 : Shape := ⟨4, ![32, 256, 64, 64]⟩
abbrev S64x1 : Shape := ⟨2, ![64, 1]⟩
abbrev S1x64 : Shape := ⟨2, ![1, 64]⟩
abbrev S1x256x64x64 : Shape := ⟨4, ![1, 256, 64, 64]⟩
abbrev S256x64x64 : Shape := ⟨3, ![256, 64, 64]⟩
abbrev S64x64 : Shape := ⟨2, ![64, 64]⟩
abbrev S64 : Shape := ⟨1, ![64]⟩
abbrev S1 : Shape := ⟨1, ![1]⟩
abbrev S1x1 : Shape := ⟨2, ![1, 1]⟩
abbrev S1x64x64 : Shape := ⟨3, ![1, 64, 64]⟩

abbrev nBuf : Space → Nat
  | .hbm => 14
  | .vmem => 16
  | .smem => 0
  | _ => 0

abbrev bufTy : (tb : Table) → Fin (tcTables nBuf tb) → BufTy
  | .hbm, ⟨0, _⟩ => ⟨S32x256x64x64, .f32⟩
  | .hbm, ⟨1, _⟩ => ⟨S64x1, .f32⟩
  | .hbm, ⟨2, _⟩ => ⟨S64x1, .f32⟩
  | .hbm, ⟨3, _⟩ => ⟨S64x1, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S64x1, .f32⟩
  | .hbm, ⟨8, _⟩ => ⟨S64x1, .f32⟩
  | .hbm, ⟨9, _⟩ => ⟨S64x1, .f32⟩
  | .hbm, ⟨10, _⟩ => ⟨S1x64, .f32⟩
  | .hbm, ⟨11, _⟩ => ⟨S1x64, .f32⟩
  | .hbm, ⟨12, _⟩ => ⟨S1x64, .f32⟩
  | .hbm, ⟨13, _⟩ => ⟨S32x256x64x64, .f32⟩
  | .local _ .vmem, ⟨0, _⟩ => ⟨S1x256x64x64, .f32⟩
  | .local _ .vmem, ⟨1, _⟩ => ⟨S1x256x64x64, .f32⟩
  | .local _ .vmem, ⟨2, _⟩ => ⟨S64x1, .f32⟩
  | .local _ .vmem, ⟨3, _⟩ => ⟨S64x1, .f32⟩
  | .local _ .vmem, ⟨4, _⟩ => ⟨S64x1, .f32⟩
  | .local _ .vmem, ⟨5, _⟩ => ⟨S1x64, .f32⟩
  | .local _ .vmem, ⟨6, _⟩ => ⟨S1x64, .f32⟩
  | .local _ .vmem, ⟨7, _⟩ => ⟨S1x64, .f32⟩
  | .local _ .vmem, ⟨8, _⟩ => ⟨S64x1, .f32⟩
  | .local _ .vmem, ⟨9, _⟩ => ⟨S64x1, .f32⟩
  | .local _ .vmem, ⟨10, _⟩ => ⟨S64x1, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S1x256x64x64, .f32⟩
  | .local _ .vmem, ⟨15, _⟩ => ⟨S1x256x64x64, .f32⟩
  | _, _ => ⟨S32x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x256x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1x256x64x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  inb_S1x256x64x64_S1x256x64x64_0_0_0_0 : ∀ a, (![0, 0, 0, 0] : Fin 4 → Nat) a + S1x256x64x64.size a ≤ S1x256x64x64.size a
  h_S1x256x64x64 : 0 < S1x256x64x64.numel
  shapeCasts_S1x256x64x64_S256x64x64 : S1x256x64x64.ShapeCasts S256x64x64
  reduces_S256x64x64_S64x64 : S256x64x64.Reduces [0] S64x64
  reduces_S64x64_S64 : S64x64.Reduces [0] S64
  shapeCasts_S64_S1x64 : S64.ShapeCasts S1x64
  reduces_S64x64_S64_2 : S64x64.Reduces [1] S64
  shapeCasts_S64_S64x1 : S64.ShapeCasts S64x1
  transposes_S64x1_p1_0_S1x64 : S64x1.Transposes [1, 0] S1x64
  inb_S64x1_S64x1_0_0 : ∀ a, (![0, 0] : Fin 2 → Nat) a + S64x1.size a ≤ S64x1.size a
  h_S64x1 : 0 < S64x1.numel
  inb_S1x64_S1x64_0_0 : ∀ a, (![0, 0] : Fin 2 → Nat) a + S1x64.size a ≤ S1x64.size a
  h_S1x64 : 0 < S1x64.numel
  reduces_S1x64_S1 : S1x64.Reduces [1] S1
  shapeCasts_S1_S1x1 : S1.ShapeCasts S1x1
  broadcasts_S1x1_S1x64 : S1x1.Broadcasts S1x64
  transposes_S1x64_p1_0_S64x1 : S1x64.Transposes [1, 0] S64x1
  broadcasts_S64x1_S64x64 : S64x1.Broadcasts S64x64
  broadcasts_S1x64_S64x64 : S1x64.Broadcasts S64x64
  shapeCasts_S64x64_S1x64x64 : S64x64.ShapeCasts S1x64x64
  broadcasts_S1x64x64_S256x64x64 : S1x64x64.Broadcasts S256x64x64
  shapeCasts_S256x64x64_S1x256x64x64 : S256x64x64.ShapeCasts S1x256x64x64
  dot_S1x64_S64x1_S1x1_1_0_0_1_n_n_wf : DotDims.WF S1x64 S64x1 S1x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x64x64.size a ≤ S32x256x64x64.size a
  hwx0_0 : ∀ i : grid0.Coords, EltTy.bits .f32 = 32 ∨ (Rect.block (s := S32x256x64x64) S1x256x64x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x1.size a ≤ S64x1.size a
  hwx0_1 : ∀ i : grid0.Coords, EltTy.bits .f32 = 32 ∨ (Rect.block (s := S64x1) S64x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S64x1.size a
  hwx0_2 : ∀ i : grid0.Coords, EltTy.bits .f32 = 32 ∨ (Rect.block (s := S64x1) S64x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x1.size a ≤ S64x1.size a
  hwx0_3 : ∀ i : grid0.Coords, EltTy.bits .f32 = 32 ∨ (Rect.block (s := S64x1) S64x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x1.size a ≤ S64x1.size a
  hwx0_7 : ∀ i : grid0.Coords, EltTy.bits .f32 = 32 ∨ (Rect.block (s := S64x1) S64x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x1.size a ≤ S64x1.size a
  hwx0_8 : ∀ i : grid0.Coords, EltTy.bits .f32 = 32 ∨ (Rect.block (s := S64x1) S64x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x1.size a ≤ S64x1.size a
  hwx0_9 : ∀ i : grid0.Coords, EltTy.bits .f32 = 32 ∨ (Rect.block (s := S64x1) S64x1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x64.size a ≤ S1x64.size a
  hwx0_11 : ∀ i : grid0.Coords, EltTy.bits .f32 = 32 ∨ (Rect.block (s := S1x64) S1x64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x64.size a ≤ S1x64.size a
  hwx0_12 : ∀ i : grid0.Coords, EltTy.bits .f32 = 32 ∨ (Rect.block (s := S1x64) S1x64.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x256x64x64.size a ≤ S32x256x64x64.size a
  hwx0_13 : ∀ i : grid0.Coords, EltTy.bits .f32 = 32 ∨ (Rect.block (s := S32x256x64x64) S1x256x64x64.size (cc0_transform_13 i) (hinb0_13 i)).WholeWords (EltTy.packing .f32)

variable [Facts₀]

def dot_S1x64_S64x1_S1x1_1_0_0_1_n_n : DotDims S1x64 S64x1 S1x1 where
  lhsContracting := [1]
  rhsContracting := [0]
  lhsNonContracting := [0]
  rhsNonContracting := [1]
  lhsBatch := []
  rhsBatch := []
  wf := dot_S1x64_S64x1_S1x1_1_0_0_1_n_n_wf

abbrev win0_0 : Pipeline.Window sig grid0 :=
  Pipeline.Window.ofSpec (Memref.whole main_arg0) S1x256x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S64x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S64x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S64x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S1x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S1x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S1x64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v0) S1x256x64x64.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S32x256x64x64 : Shape := ⟨4, ![32, 256, 64, 64]⟩
abbrev S64x1 : Shape := ⟨2, ![64, 1]⟩
abbrev S1x64 : Shape := ⟨2, ![1, 64]⟩
abbrev S_ : Shape := ⟨0, ![]⟩
abbrev S32x64x64 : Shape := ⟨3, ![32, 64, 64]⟩
abbrev S32x64 : Shape := ⟨2, ![32, 64]⟩
abbrev S32 : Shape := ⟨1, ![32]⟩
abbrev S32x1 : Shape := ⟨2, ![32, 1]⟩
abbrev S32x64x1 : Shape := ⟨3, ![32, 64, 1]⟩
abbrev S32x1x64 : Shape := ⟨3, ![32, 1, 64]⟩
abbrev S32x1x64x64 : Shape := ⟨4, ![32, 1, 64, 64]⟩

abbrev nBuf : Space → Nat
  | .hbm => 108
  | .vmem => 0
  | .smem => 0
  | _ => 0

abbrev bufTy : (tb : Table) → Fin (tcTables nBuf tb) → BufTy
  | .hbm, ⟨0, _⟩ => ⟨S32x256x64x64, .f32⟩
  | .hbm, ⟨1, _⟩ => ⟨S64x1, .f32⟩
  | .hbm, ⟨2, _⟩ => ⟨S64x1, .f32⟩
  | .hbm, ⟨3, _⟩ => ⟨S64x1, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S64x1, .f32⟩
  | .hbm, ⟨8, _⟩ => ⟨S64x1, .f32⟩
  | .hbm, ⟨9, _⟩ => ⟨S64x1, .f32⟩
  | .hbm, ⟨10, _⟩ => ⟨S1x64, .f32⟩
  | .hbm, ⟨11, _⟩ => ⟨S1x64, .f32⟩
  | .hbm, ⟨12, _⟩ => ⟨S1x64, .f32⟩
  | .hbm, ⟨13, _⟩ => ⟨S_, .f32⟩
  | .hbm, ⟨14, _⟩ => ⟨S32x64x64, .f32⟩
  | .hbm, ⟨15, _⟩ => ⟨S_, .f32⟩
  | .hbm, ⟨16, _⟩ => ⟨S32x64x64, .f32⟩
  | .hbm, ⟨17, _⟩ => ⟨S_, .f32⟩
  | .hbm, ⟨18, _⟩ => ⟨S32x64x64, .f32⟩
  | .hbm, ⟨19, _⟩ => ⟨S32x64x64, .f32⟩
  | .hbm, ⟨20, _⟩ => ⟨S_, .f32⟩
  | .hbm, ⟨21, _⟩ => ⟨S32x64, .f32⟩
  | .hbm, ⟨22, _⟩ => ⟨S_, .f32⟩
  | .hbm, ⟨23, _⟩ => ⟨S32x64, .f32⟩
  | .hbm, ⟨24, _⟩ => ⟨S_, .f32⟩
  | .hbm, ⟨25, _⟩ => ⟨S32x64, .f32⟩
  | .hbm, ⟨26, _⟩ => ⟨S32x64, .f32⟩
  | .hbm, ⟨27, _⟩ => ⟨S_, .f32⟩
  | .hbm, ⟨28, _⟩ => ⟨S32x64, .f32⟩
  | .hbm, ⟨29, _⟩ => ⟨S_, .f32⟩
  | .hbm, ⟨30, _⟩ => ⟨S32x64, .f32⟩
  | .hbm, ⟨31, _⟩ => ⟨S_, .f32⟩
  | .hbm, ⟨32, _⟩ => ⟨S32x64, .f32⟩
  | .hbm, ⟨33, _⟩ => ⟨S32x64, .f32⟩
  | .hbm, ⟨34, _⟩ => ⟨S_, .f32⟩
  | .hbm, ⟨35, _⟩ => ⟨S32, .f32⟩
  | .hbm, ⟨36, _⟩ => ⟨S_, .f32⟩
  | .hbm, ⟨37, _⟩ => ⟨S32, .f32⟩
  | .hbm, ⟨38, _⟩ => ⟨S32, .f32⟩
  | .hbm, ⟨39, _⟩ => ⟨S32x1, .f32⟩
  | .hbm, ⟨40, _⟩ => ⟨S32x64, .f32⟩
  | .hbm, ⟨41, _⟩ => ⟨S32x64, .f32⟩
  | .hbm, ⟨42, _⟩ => ⟨S32x64, .f32⟩
  | .hbm, ⟨43, _⟩ => ⟨S_, .f32⟩
  | .hbm, ⟨44, _⟩ => ⟨S32, .f32⟩
  | .hbm, ⟨45, _⟩ => ⟨S32x1, .f32⟩
  | .hbm, ⟨46, _⟩ => ⟨S32x64, .f32⟩
  | .hbm, ⟨47, _⟩ => ⟨S32x64, .f32⟩
  | .hbm, ⟨48, _⟩ => ⟨S32x1, .f32⟩
  | .hbm, ⟨49, _⟩ => ⟨S32x1, .f32⟩
  | .hbm, ⟨50, _⟩ => ⟨S32x64, .f32⟩
  | .hbm, ⟨51, _⟩ => ⟨S32x64, .f32⟩
  | .hbm, ⟨52, _⟩ => ⟨S32x64, .f32⟩
  | .hbm, ⟨53, _⟩ => ⟨S32x64, .f32⟩
  | .hbm, ⟨54, _⟩ => ⟨S32x64, .f32⟩
  | .hbm, ⟨55, _⟩ => ⟨S32x64, .f32⟩
  | .hbm, ⟨56, _⟩ => ⟨S32x64, .f32⟩
  | .hbm, ⟨57, _⟩ => ⟨S32x64, .f32⟩
  | .hbm, ⟨58, _⟩ => ⟨S32x64, .f32⟩
  | .hbm, ⟨59, _⟩ => ⟨S32x64, .f32⟩
  | .hbm, ⟨60, _⟩ => ⟨S32x1, .f32⟩
  | .hbm, ⟨61, _⟩ => ⟨S32x64, .f32⟩
  | .hbm, ⟨62, _⟩ => ⟨S32x64, .f32⟩
  | .hbm, ⟨63, _⟩ => ⟨S32x64, .f32⟩
  | .hbm, ⟨64, _⟩ => ⟨S32x64, .f32⟩
  | .hbm, ⟨65, _⟩ => ⟨S_, .f32⟩
  | .hbm, ⟨66, _⟩ => ⟨S32, .f32⟩
  | .hbm, ⟨67, _⟩ => ⟨S_, .f32⟩
  | .hbm, ⟨68, _⟩ => ⟨S32, .f32⟩
  | .hbm, ⟨69, _⟩ => ⟨S32, .f32⟩
  | .hbm, ⟨70, _⟩ => ⟨S32x1, .f32⟩
  | .hbm, ⟨71, _⟩ => ⟨S32x64, .f32⟩
  | .hbm, ⟨72, _⟩ => ⟨S32x64, .f32⟩
  | .hbm, ⟨73, _⟩ => ⟨S32x64, .f32⟩
  | .hbm, ⟨74, _⟩ => ⟨S_, .f32⟩
  | .hbm, ⟨75, _⟩ => ⟨S32, .f32⟩
  | .hbm, ⟨76, _⟩ => ⟨S32x1, .f32⟩
  | .hbm, ⟨77, _⟩ => ⟨S32x64, .f32⟩
  | .hbm, ⟨78, _⟩ => ⟨S32x64, .f32⟩
  | .hbm, ⟨79, _⟩ => ⟨S32x1, .f32⟩
  | .hbm, ⟨80, _⟩ => ⟨S32x1, .f32⟩
  | .hbm, ⟨81, _⟩ => ⟨S32x64, .f32⟩
  | .hbm, ⟨82, _⟩ => ⟨S32x64, .f32⟩
  | .hbm, ⟨83, _⟩ => ⟨S32x64, .f32⟩
  | .hbm, ⟨84, _⟩ => ⟨S32x64, .f32⟩
  | .hbm, ⟨85, _⟩ => ⟨S32x64, .f32⟩
  | .hbm, ⟨86, _⟩ => ⟨S32x64, .f32⟩
  | .hbm, ⟨87, _⟩ => ⟨S32x64, .f32⟩
  | .hbm, ⟨88, _⟩ => ⟨S32x64, .f32⟩
  | .hbm, ⟨89, _⟩ => ⟨S32x64, .f32⟩
  | .hbm, ⟨90, _⟩ => ⟨S32x64, .f32⟩
  | .hbm, ⟨91, _⟩ => ⟨S32x1, .f32⟩
  | .hbm, ⟨92, _⟩ => ⟨S32x64, .f32⟩
  | .hbm, ⟨93, _⟩ => ⟨S32x64, .f32⟩
  | .hbm, ⟨94, _⟩ => ⟨S32x64, .f32⟩
  | .hbm, ⟨95, _⟩ => ⟨S32x64, .f32⟩
  | .hbm, ⟨96, _⟩ => ⟨S32x64x1, .f32⟩
  | .hbm, ⟨97, _⟩ => ⟨S32x1x64, .f32⟩
  | .hbm, ⟨98, _⟩ => ⟨S32x64x64, .f32⟩
  | .hbm, ⟨99, _⟩ => ⟨S32x64x64, .f32⟩
  | .hbm, ⟨100, _⟩ => ⟨S32x64x64, .f32⟩
  | .hbm, ⟨101, _⟩ => ⟨S32x64x64, .f32⟩
  | .hbm, ⟨102, _⟩ => ⟨S32x1x64x64, .f32⟩
  | .hbm, ⟨103, _⟩ => ⟨S_, .f32⟩
  | .hbm, ⟨104, _⟩ => ⟨S32x1x64x64, .f32⟩
  | .hbm, ⟨105, _⟩ => ⟨S32x1x64x64, .f32⟩
  | .hbm, ⟨106, _⟩ => ⟨S32x256x64x64, .f32⟩
  | .hbm, ⟨107, _⟩ => ⟨S32x256x64x64, .f32⟩
  | _, _ => ⟨S32x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_cst_1 : Ref sig .tc := ⟨.hbm, 17, rfl⟩
abbrev main_v2 : Ref sig .tc := ⟨.hbm, 18, rfl⟩
abbrev main_v3 : Ref sig .tc := ⟨.hbm, 19, rfl⟩
abbrev main_cst_2 : Ref sig .tc := ⟨.hbm, 20, rfl⟩
abbrev main_v4 : Ref sig .tc := ⟨.hbm, 21, rfl⟩
abbrev main_cst_3 : Ref sig .tc := ⟨.hbm, 22, rfl⟩
abbrev main_v5 : Ref sig .tc := ⟨.hbm, 23, rfl⟩
abbrev main_cst_4 : Ref sig .tc := ⟨.hbm, 24, rfl⟩
abbrev main_v6 : Ref sig .tc := ⟨.hbm, 25, rfl⟩
abbrev main_v7 : Ref sig .tc := ⟨.hbm, 26, rfl⟩
abbrev main_cst_5 : Ref sig .tc := ⟨.hbm, 27, rfl⟩
abbrev main_v8 : Ref sig .tc := ⟨.hbm, 28, rfl⟩
abbrev main_cst_6 : Ref sig .tc := ⟨.hbm, 29, rfl⟩
abbrev main_v9 : Ref sig .tc := ⟨.hbm, 30, rfl⟩
abbrev main_cst_7 : Ref sig .tc := ⟨.hbm, 31, rfl⟩
abbrev main_v10 : Ref sig .tc := ⟨.hbm, 32, rfl⟩
abbrev main_v11 : Ref sig .tc := ⟨.hbm, 33, rfl⟩
abbrev main_cst_8 : Ref sig .tc := ⟨.hbm, 34, rfl⟩
abbrev main_v12 : Ref sig .tc := ⟨.hbm, 35, rfl⟩
abbrev main_cst_9 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_cst_10 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_11 : Ref sig .tc := ⟨.hbm, 65, rfl⟩
abbrev main_v40 : Ref sig .tc := ⟨.hbm, 66, rfl⟩
abbrev main_cst_12 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_13 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_14 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩

abbrev nD : Nat := 1
abbrev τ : Topo := Topo.v7x

variable {F : FTy → Type} [FloatOps F]

class Facts₀ : Prop where
  reducesTo_S32x256x64x64_S32x64x64_d1 : S32x256x64x64.ReducesTo [1] S32x64x64
  h_S_ : 0 < S_.numel
  bcast_S_S32x64x64 : S_.BroadcastsInDim S32x64x64 (![] : Fin 0 → Fin S32x64x64.rank)
  reducesTo_S32x64x64_S32x64_d1 : S32x64x64.ReducesTo [1] S32x64
  bcast_S_S32x64 : S_.BroadcastsInDim S32x64 (![] : Fin 0 → Fin S32x64.rank)
  reducesTo_S32x64x64_S32x64_d2 : S32x64x64.ReducesTo [2] S32x64
  reducesTo_S32x64_S32_d1 : S32x64.ReducesTo [1] S32
  bcast_S_S32 : S_.BroadcastsInDim S32 (![] : Fin 0 → Fin S32.rank)
  bcast_S32_S32x1_0 : S32.BroadcastsInDim S32x1 (![0] : Fin 1 → Fin S32x1.rank)
  bcast_S32x1_S32x64_0_1 : S32x1.BroadcastsInDim S32x64 (![0, 1] : Fin 2 → Fin S32x64.rank)
  bcast_S1x64_S32x64_0_1 : S1x64.BroadcastsInDim S32x64 (![0, 1] : Fin 2 → Fin S32x64.rank)
  bcast_S32x64_S32x64x1_0_1 : S32x64.BroadcastsInDim S32x64x1 (![0, 1] : Fin 2 → Fin S32x64x1.rank)
  bcast_S32x64_S32x1x64_0_2 : S32x64.BroadcastsInDim S32x1x64 (![0, 2] : Fin 2 → Fin S32x1x64.rank)
  bcast_S32x64x1_S32x64x64_0_1_2 : S32x64x1.BroadcastsInDim S32x64x64 (![0, 1, 2] : Fin 3 → Fin S32x64x64.rank)
  bcast_S32x1x64_S32x64x64_0_1_2 : S32x1x64.BroadcastsInDim S32x64x64 (![0, 1, 2] : Fin 3 → Fin S32x64x64.rank)
  bcast_S32x64x64_S32x1x64x64_0_2_3 : S32x64x64.BroadcastsInDim S32x1x64x64 (![0, 2, 3] : Fin 3 → Fin S32x1x64x64.rank)
  bcast_S_S32x1x64x64 : S_.BroadcastsInDim S32x1x64x64 (![] : Fin 0 → Fin S32x1x64x64.rank)
  bcast_S32x1x64x64_S32x256x64x64_0_1_2_3 : S32x1x64x64.BroadcastsInDim S32x256x64x64 (![0, 1, 2, 3] : Fin 4 → Fin S32x256x64x64.rank)
  dot_S32x64_S64x1_S32x1_1_0_0_1_n_n_wf : DotDims.WF S32x64 S64x1 S32x1 [1] [0] [0] [1] [] []

variable [Facts₀]

def dot_S32x64_S64x1_S32x1_1_0_0_1_n_n : DotDims S32x64 S64x1 S32x1 where
  lhsContracting := [1]
  rhsContracting := [0]
  lhsNonContracting := [0]
  rhsNonContracting := [1]
  lhsBatch := []
  rhsBatch := []
  wf := dot_S32x64_S64x1_S32x1_1_0_0_1_n_n_wf

class Facts : Prop extends Facts₀ where

variable [Facts]
-- ==== Proof.Spec.lean ====
/-
  The function both programs compute, index by index, on the extended reals.

  For one batch slice `xs c h w` (256 channels over a 64 × 64 grid):
    * over the channels, the maximum `chanMax h w` and the mean `chanMean h w` (the sum divided by 256);
    * of those two 64 × 64 tables, the maximum and the mean (a sum divided by 64) down each column (`colMax`, `colMean`,
      indexed by `w`) and along each row (`rowMax`, `rowMean`, indexed by `h`);
    * a gate on 64 entries from a mean vector, a maximum vector, three weight columns and three bias rows:
      with `s = softmax mean` (the maximum subtracted first, taken from -∞), `y0 = mean · w0`, `y1 = mx · w1`,
      `gate j = (tanh (y1 s + b1) · w2) * tanh (y0 (s j) + b0 j) + b2 j`;
    * the result `xs c h w * (tanh (gateH h * gateW w) + 1)`, the row gate from the row statistics, the column gate from
      the column statistics.
  Float literals stay the words the programs spell; the only one ever evaluated is the pair 256 and 1/256:
  a sum times the word of 2⁻⁸ is that sum divided by the word of 256, on every extended real (`mul_inv256`).
-/
import Idealize.ShloMosaic.PureOps.Ideal
import Idealize.ShloMosaic.Lib.ValueIdx

noncomputable section

namespace Cert.SpatialGate

open Idealize.ShloMosaic Idealize.ShloMosaic.ValueIdx

/-- The word of -∞, from which every maximum starts. -/
def negInf : EReal := Ideal.ofBits .f32 0xFF800000#32
/-- The word of 64, the divisor of the row and column means. -/
def w64 : EReal := Ideal.ofBits .f32 0x42800000#32
/-- The word of 256, the divisor of the channel mean. -/
def w256 : EReal := Ideal.ofBits .f32 0x43800000#32
/-- The word of 1, added to the gate's product. -/
def wOne : EReal := Ideal.ofBits .f32 0x3F800000#32

/-- The maximum of a family of 64 or 256 values, from -∞. -/
def maxOver {n : ℕ} (f : Fin n → EReal) : EReal := (Finset.univ : Finset (Fin n)).fold max negInf f

section Slice
variable (xs : Fin 256 → Fin 64 → Fin 64 → EReal)

def chanMax (h w : Fin 64) : EReal := maxOver fun c => xs c h w
def chanMean (h w : Fin 64) : EReal := Ideal.div (∑ c : Fin 256, xs c h w) w256
def colMax (w : Fin 64) : EReal := maxOver fun h => chanMax xs h w
def colMean (w : Fin 64) : EReal := Ideal.div (∑ h : Fin 64, chanMean xs h w) w64
def rowMax (h : Fin 64) : EReal := maxOver fun w => chanMax xs h w
def rowMean (h : Fin 64) : EReal := Ideal.div (∑ w : Fin 64, chanMean xs h w) w64
end Slice

/-- A vector less its maximum, the maximum taken from -∞ twice over (the reduction's start and one more `max`). -/
def shifted (v : Fin 64 → EReal) (j : Fin 64) : EReal := v j - max negInf (maxOver v)
/-- Exponentials over their sum. -/
def expNorm (e : Fin 64 → EReal) (j : Fin 64) : EReal := Ideal.div (Ideal.exp (e j)) (∑ k : Fin 64, Ideal.exp (e k))
def softmax (v : Fin 64 → EReal) : Fin 64 → EReal := expNorm (shifted v)
def dot (u v : Fin 64 → EReal) : EReal := ∑ k : Fin 64, u k * v k

/-- The gate from a softmax `s` already taken and the two products `y0`, `y1` already formed. -/
def gateOf (s : Fin 64 → EReal) (y0 y1 : EReal) (w2 b0 b1 b2 : Fin 64 → EReal) (j : Fin 64) : EReal :=
  dot (fun k => Ideal.tanh (y1 * s k + b1 k)) w2 * Ideal.tanh (y0 * s j + b0 j) + b2 j

def gate (mean mx w0 w1 w2 b0 b1 b2 : Fin 64 → EReal) : Fin 64 → EReal :=
  gateOf (softmax mean) (dot mean w0) (dot mx w1) w2 b0 b1 b2

/-- One batch slice's result. -/
def out (xs : Fin 256 → Fin 64 → Fin 64 → EReal) (ww0 ww1 ww2 wb0 wb1 wb2 hw0 hw1 hw2 hb0 hb1 hb2 : Fin 64 → EReal)
    (c : Fin 256) (h w : Fin 64) : EReal :=
  xs c h w * (Ideal.tanh (gate (rowMean xs) (rowMax xs) hw0 hw1 hw2 hb0 hb1 hb2 h
      * gate (colMean xs) (colMax xs) ww0 ww1 ww2 wb0 wb1 wb2 w) + wOne)

/-- A weight column `[64, 1]` as a vector. -/
def colVec (W : (⟨2, ![64, 1]⟩ : Shape).Idx → EReal) (k : Fin 64) : EReal := W (ix2 k (0 : Fin 1))
/-- A bias row `[1, 64]` as a vector. -/
def rowVec (B : (⟨2, ![1, 64]⟩ : Shape).Idx → EReal) (k : Fin 64) : EReal := B (ix2 (0 : Fin 1) k)
/-- Batch `b`'s slice of the input. -/
def slice (X : (⟨4, ![32, 256, 64, 64]⟩ : Shape).Idx → EReal) (b : Fin 32) (c : Fin 256) (h w : Fin 64) : EReal :=
  X (ix4 b c h w)

/-- The whole result array as one function of the thirteen inputs. -/
def G (X : (⟨4, ![32, 256, 64, 64]⟩ : Shape).Idx → EReal)
    (WW0 WW1 WW2 : (⟨2, ![64, 1]⟩ : Shape).Idx → EReal) (WB0 WB1 WB2 : (⟨2, ![1, 64]⟩ : Shape).Idx → EReal)
    (HW0 HW1 HW2 : (⟨2, ![64, 1]⟩ : Shape).Idx → EReal) (HB0 HB1 HB2 : (⟨2, ![1, 64]⟩ : Shape).Idx → EReal) :
    (⟨4, ![32, 256, 64, 64]⟩ : Shape).Idx → EReal := fun i =>
  out (slice X ⟨(i 0).val, (i 0).isLt⟩) (colVec WW0) (colVec WW1) (colVec WW2) (rowVec WB0) (rowVec WB1) (rowVec WB2)
    (colVec HW0) (colVec HW1) (colVec HW2) (rowVec HB0) (rowVec HB1) (rowVec HB2)
    ⟨(i 1).val, (i 1).isLt⟩ ⟨(i 2).val, (i 2).isLt⟩ ⟨(i 3).val, (i 3).isLt⟩

theorem G_apply (X : (⟨4, ![32, 256, 64, 64]⟩ : Shape).Idx → EReal)
    (WW0 WW1 WW2 : (⟨2, ![64, 1]⟩ : Shape).Idx → EReal) (WB0 WB1 WB2 : (⟨2, ![1, 64]⟩ : Shape).Idx → EReal)
    (HW0 HW1 HW2 : (⟨2, ![64, 1]⟩ : Shape).Idx → EReal) (HB0 HB1 HB2 : (⟨2, ![1, 64]⟩ : Shape).Idx → EReal)
    (b : Fin 32) (c : Fin 256) (h w : Fin 64) :
    G X WW0 WW1 WW2 WB0 WB1 WB2 HW0 HW1 HW2 HB0 HB1 HB2 (ix4 b c h w)
      = out (slice X b) (colVec WW0) (colVec WW1) (colVec WW2) (rowVec WB0) (rowVec WB1) (rowVec WB2)
          (colVec HW0) (colVec HW1) (colVec HW2) (rowVec HB0) (rowVec HB1) (rowVec HB2) c h w := rfl

/-! ## The one law: a product with 2⁻⁸ is a quotient by 256 -/

theorem ofBits_256 : Ideal.ofBits .f32 0x43800000#32 = ((256 : ℝ) : EReal) := by
  simp [Ideal.ofBits, Ideal.ieee, -EReal.coe_mul]; norm_num

theorem ofBits_inv256 : Ideal.ofBits .f32 0x3B800000#32 = ((1 / 256 : ℝ) : EReal) := by
  simp [Ideal.ofBits, Ideal.ieee, -EReal.coe_mul]; norm_num

/-- On every extended real, infinite ones too, `s * 2⁻⁸ = s / 256`. -/
theorem mul_inv256 (s : EReal) : s * Ideal.ofBits .f32 0x3B800000#32 = Ideal.div s w256 := by
  rw [w256, ofBits_256, ofBits_inv256, Ideal.div_coe (by norm_num)]

/-- The word of zero, from which every sum starts, is zero. -/
theorem ofBits_zero : Ideal.ofBits .f32 0x00000000#32 = 0 := by simp [Ideal.ofBits, Ideal.ieee]

end Cert.SpatialGate

end
-- ==== Proof.LibGateLayout.lean ====
/-
  Layout forms read at an index, generic in extents, that a kernel written with `keepdims` reductions and
  outer products meets: a vector cast to a column, a one-entry matrix broadcast to a row, a column broadcast
  across the columns, one plane broadcast down a stack of planes.
-/
import Idealize.ShloMosaic.Lib.Pipeline.Value
import Idealize.ShloMosaic.Lib.ValueIdx

namespace Idealize.ShloMosaic.GateLayout

open Idealize.ShloMosaic Idealize.ShloMosaic.ValueIdx

variable {α : Type}

/-- A vector `[a]` cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A one-entry matrix `[1, 1]` broadcast to a row `[1, b]` reads its one entry everywhere. -/
theorem broadcastTo_11_1b_apply {b : ℕ} (x : (⟨2, ![1, 1]⟩ : Shape).Idx → α) (h : (⟨2, ![1, 1]⟩ : Shape).Broadcasts ⟨2, ![1, b]⟩)
    (u : Fin 1) (j : Fin b) : broadcastTo ⟨2, ![1, b]⟩ x h (ix2 u j) = x (ix2 (0 : Fin 1) (0 : Fin 1)) := by
  refine broadcastTo_apply x h (ix2 u j) (ix2 (0 : Fin 1) (0 : Fin 1)) fun ax => ?_
  match ax with
  | ⟨0, _⟩ => rfl
  | ⟨1, _⟩ => rfl

/-- A column `[a, 1]` broadcast to `[a, b]` reads, at `(i, j)`, the column at `i`. -/
theorem broadcastTo_a1_ab_apply {a b : ℕ} (x : (⟨2, ![a, 1]⟩ : Shape).Idx → α) (h : (⟨2, ![a, 1]⟩ : Shape).Broadcasts ⟨2, ![a, b]⟩)
    (i : Fin a) (j : Fin b) : broadcastTo ⟨2, ![a, b]⟩ x h (ix2 i j) = x (ix2 i (0 : Fin 1)) := by
  refine broadcastTo_apply x h (ix2 i j) (ix2 i (0 : Fin 1)) fun ax => ?_
  match ax with
  | ⟨0, _⟩ =>
    show i.val = if a = 1 then 0 else i.val
    split
    · have := i.isLt; omega
    · rfl
  | ⟨1, _⟩ => rfl

/-- One plane `[1, b, c]` broadcast down a stack `[a, b, c]` reads, at `(k, i, j)`, the plane at `(i, j)`. -/
theorem broadcastTo_1bc_abc_apply {a b c : ℕ} (x : (⟨3, ![1, b, c]⟩ : Shape).Idx → α)
    (h : (⟨3, ![1, b, c]⟩ : Shape).Broadcasts ⟨3, ![a, b, c]⟩) (k : Fin a) (i : Fin b) (j : Fin c) :
    broadcastTo ⟨3, ![a, b, c]⟩ x h (ix3 k i j) = x (ix3 (0 : Fin 1) i j) := by
  refine broadcastTo_apply x h (ix3 k i j) (ix3 (0 : Fin 1) i j) fun ax => ?_
  match ax with
  | ⟨0, _⟩ => rfl
  | ⟨1, _⟩ =>
    show i.val = if b = 1 then 0 else i.val
    split
    · have := i.isLt; omega
    · rfl
  | ⟨2, _⟩ =>
    show j.val = if c = 1 then 0 else j.val
    split
    · have := j.isLt; omega
    · rfl

end Idealize.ShloMosaic.GateLayout
-- ==== Proof.KerStats.lean ====
/-
  The kernel's statistics of one loaded block, read at an index.

  The block `v0` is one batch slice `[1, 256, 64, 64]`; `blockSlice v0 c h w` is its entry at channel `c`, row `h`,
  column `w`. Over the channels the body takes the maximum (from -∞) and the sum times 2⁻⁸, which is the sum divided
  by 256 on every extended real; of those two 64 × 64 tables it takes the maximum and the mean down the columns
  (kept as a row `[1, 64]` indexed by `w`) and along the rows (a vector cast to a column `[64, 1]` and transposed to a
  row indexed by `h`); and it subtracts from the column means their maximum. Each is the specification's function
  of the slice.
-/
import proofs.«106315_j1580547973359_1_alg».proof.Proof.Gen.KernelIdeal.Skeleton
import proofs.«106315_j1580547973359_1_alg».proof.Proof.Spec
import proofs.«106315_j1580547973359_1_alg».proof.Proof.LibGateLayout
import Idealize.ShloMosaic.Lib.ValueLayout
import Idealize.ShloMosaic.PureOps.Ideal.Laws

noncomputable section

open Idealize.ShloMosaic Idealize.ShloMosaic.ValueIdx Idealize.ShloMosaic.GateLayout
open Cert.KernelIdeal Cert.KernelIdeal.Gen Cert.SpatialGate

namespace Cert.KernelIdeal.KerValue

/-- The loaded block as a slice: channel, row, column. -/
def blockSlice (v0 : FVec Ideal S1x256x64x64 .f32) (c : Fin 256) (h w : Fin 64) : EReal := v0 (ix4 (0 : Fin 1) c h w)

/-! ## Where a reduction's coordinate is inserted -/

theorem ins_chan (h w : Fin 64) (c : Fin 256) : reduces_S256x64x64_S64x64.lift (ix2 h w) c = ix3 c h w :=
  funext fun a => Fin.ext (by match a with | ⟨0, _⟩ => rfl | ⟨1, _⟩ => rfl | ⟨2, _⟩ => rfl)

theorem ins_down (w : Fin 64) (k : Fin 64) : reduces_S64x64_S64.lift (ix1 w) k = ix2 k w :=
  funext fun a => Fin.ext (by match a with | ⟨0, _⟩ => rfl | ⟨1, _⟩ => rfl)

theorem ins_along (h : Fin 64) (k : Fin 64) : reduces_S64x64_S64_2.lift (ix1 h) k = ix2 h k :=
  funext fun a => Fin.ext (by match a with | ⟨0, _⟩ => rfl | ⟨1, _⟩ => rfl)

theorem ins_row (u : Fin 1) (k : Fin 64) : reduces_S1x64_S1.lift (ix1 u) k = ix2 u k :=
  funext fun a => Fin.ext (by match a with | ⟨0, _⟩ => rfl | ⟨1, _⟩ => rfl)

/-! ## The tables over the channels -/

theorem pay2_apply (v0 : FVec Ideal S1x256x64x64 .f32) (c : Fin 256) (h w : Fin 64) :
    k0_pay2 (F := Ideal) v0 (ix3 c h w) = blockSlice v0 c h w := by
  unfold k0_pay2
  exact shapeCast_1abc_abc_apply v0 shapeCasts_S1x256x64x64_S256x64x64 c h w

theorem pay3_apply (v0 : FVec Ideal S1x256x64x64 .f32) (h w : Fin 64) :
    k0_pay3 (F := Ideal) v0 (ix2 h w) = chanMax (blockSlice v0) h w := by
  unfold k0_pay3
  show multiReduction (F := Ideal) .maximumf [0] S64x64 (k0_pay2 (F := Ideal) v0) 0xFF800000#32 reduces_S256x64x64_S64x64 (.inl rfl) rfl (ix2 h w) = _
  refine (Ideal.multiReduction_maximumf_single (k0_pay2 (F := Ideal) v0) _ reduces_S256x64x64_S64x64 _ _ (ix2 h w)).trans ?_
  unfold chanMax maxOver negInf
  refine Finset.fold_congr fun c _ => ?_
  rw [Function.comp_apply, ins_chan h w c]
  exact pay2_apply v0 c h w

theorem pay4_apply (v0 : FVec Ideal S1x256x64x64 .f32) (h w : Fin 64) :
    k0_pay4 (F := Ideal) v0 (ix2 h w) = chanMean (blockSlice v0) h w := by
  unfold k0_pay4
  show (multiReduction (F := Ideal) .add [0] S64x64 (k0_pay2 (F := Ideal) v0) 0x00000000#32 reduces_S256x64x64_S64x64 (.inl rfl) rfl (ix2 h w))
      * Ideal.ofBits .f32 0x3B800000#32 = _
  rw [mul_inv256]
  unfold chanMean
  refine congrArg (fun s => Ideal.div s w256) ?_
  refine (Ideal.multiReduction_add_single (k0_pay2 (F := Ideal) v0) _ reduces_S256x64x64_S64x64 _ _ (ix2 h w)).trans ?_
  refine Finset.sum_congr rfl fun c _ => ?_
  rw [ins_chan h w c]
  exact pay2_apply v0 c h w

/-! ## Down the columns and along the rows -/

theorem pay5_apply (v0 : FVec Ideal S1x256x64x64 .f32) (u : Fin 1) (w : Fin 64) :
    k0_pay5 (F := Ideal) v0 (ix2 u w) = colMax (blockSlice v0) w := by
  unfold k0_pay5
  show shapeCast S1x64 (multiReduction (F := Ideal) .maximumf [0] S64 (k0_pay3 (F := Ideal) v0) 0xFF800000#32 reduces_S64x64_S64 (.inl rfl) rfl)
      shapeCasts_S64_S1x64 (ix2 u w) = _
  refine (shapeCast_a_1a_apply _ shapeCasts_S64_S1x64 u w).trans ?_
  refine (Ideal.multiReduction_maximumf_single (k0_pay3 (F := Ideal) v0) _ reduces_S64x64_S64 _ _ (ix1 w)).trans ?_
  unfold colMax maxOver negInf
  refine Finset.fold_congr fun k _ => ?_
  rw [Function.comp_apply, ins_down w k]
  exact pay3_apply v0 k w

theorem pay6_apply (v0 : FVec Ideal S1x256x64x64 .f32) (u : Fin 1) (w : Fin 64) :
    k0_pay6 (F := Ideal) v0 (ix2 u w) = colMean (blockSlice v0) w := by
  unfold k0_pay6
  show Ideal.div (shapeCast S1x64 (multiReduction (F := Ideal) .add [0] S64 (k0_pay4 (F := Ideal) v0) 0x00000000#32 reduces_S64x64_S64 (.inl rfl) rfl)
      shapeCasts_S64_S1x64 (ix2 u w)) (Ideal.ofBits .f32 0x42800000#32) = _
  unfold colMean w64
  refine congrArg (fun s => Ideal.div s (Ideal.ofBits .f32 0x42800000#32)) ?_
  refine (shapeCast_a_1a_apply _ shapeCasts_S64_S1x64 u w).trans ?_
  refine (Ideal.multiReduction_add_single (k0_pay4 (F := Ideal) v0) _ reduces_S64x64_S64 _ _ (ix1 w)).trans ?_
  refine Finset.sum_congr rfl fun k _ => ?_
  rw [ins_down w k]
  exact pay4_apply v0 k w

theorem pay7_apply (v0 : FVec Ideal S1x256x64x64 .f32) (u : Fin 1) (h : Fin 64) :
    k0_pay7 (F := Ideal) v0 (ix2 u h) = rowMax (blockSlice v0) h := by
  unfold k0_pay7
  show transpose S1x64 [1, 0] (shapeCast S64x1 (multiReduction (F := Ideal) .maximumf [1] S64 (k0_pay3 (F := Ideal) v0) 0xFF800000#32 reduces_S64x64_S64_2 (.inl rfl) rfl)
      shapeCasts_S64_S64x1) transposes_S64x1_p1_0_S1x64 (ix2 u h) = _
  refine (transpose_ix2_apply _ transposes_S64x1_p1_0_S1x64 u h).trans ?_
  refine (shapeCast_a_a1_apply _ shapeCasts_S64_S64x1 h u).trans ?_
  refine (Ideal.multiReduction_maximumf_single (k0_pay3 (F := Ideal) v0) _ reduces_S64x64_S64_2 _ _ (ix1 h)).trans ?_
  unfold rowMax maxOver negInf
  refine Finset.fold_congr fun k _ => ?_
  rw [Function.comp_apply, ins_along h k]
  exact pay3_apply v0 h k

theorem pay8_apply (v0 : FVec Ideal S1x256x64x64 .f32) (u : Fin 1) (h : Fin 64) :
    k0_pay8 (F := Ideal) v0 (ix2 u h) = rowMean (blockSlice v0) h := by
  unfold k0_pay8
  show transpose S1x64 [1, 0] (divf (F := Ideal) (shapeCast S64x1 (multiReduction (F := Ideal) .add [1] S64 (k0_pay4 (F := Ideal) v0) 0x00000000#32 reduces_S64x64_S64_2 (.inl rfl) rfl)
      shapeCasts_S64_S64x1) (broadcast S64x1 (Scalar.ofBits (F := Ideal) .f32 0x42800000#32))) transposes_S64x1_p1_0_S1x64 (ix2 u h) = _
  refine (transpose_ix2_apply _ transposes_S64x1_p1_0_S1x64 u h).trans ?_
  show Ideal.div (shapeCast S64x1 (multiReduction (F := Ideal) .add [1] S64 (k0_pay4 (F := Ideal) v0) 0x00000000#32 reduces_S64x64_S64_2 (.inl rfl) rfl)
      shapeCasts_S64_S64x1 (ix2 h u)) (Ideal.ofBits .f32 0x42800000#32) = _
  unfold rowMean w64
  refine congrArg (fun s => Ideal.div s (Ideal.ofBits .f32 0x42800000#32)) ?_
  refine (shapeCast_a_a1_apply _ shapeCasts_S64_S64x1 h u).trans ?_
  refine (Ideal.multiReduction_add_single (k0_pay4 (F := Ideal) v0) _ reduces_S64x64_S64_2 _ _ (ix1 h)).trans ?_
  refine Finset.sum_congr rfl fun k _ => ?_
  rw [ins_along h k]
  exact pay4_apply v0 h k

/-! ## The column means less their maximum -/

theorem pay9_apply (v0 : FVec Ideal S1x256x64x64 .f32) (u : Fin 1) (j : Fin 64) :
    k0_pay9 (F := Ideal) v0 (ix2 u j) = shifted (colMean (blockSlice v0)) j := by
  unfold k0_pay9
  show k0_pay6 (F := Ideal) v0 (ix2 u j) - broadcastTo S1x64 (shapeCast S1x1 (maximumf (F := Ideal) (broadcast S1 (Scalar.ofBits (F := Ideal) .f32 0xFF800000#32))
      (multiReduction (F := Ideal) .maximumf [1] S1 (k0_pay6 (F := Ideal) v0) 0xFF800000#32 reduces_S1x64_S1 (.inl rfl) rfl)) shapeCasts_S1_S1x1)
      broadcasts_S1x1_S1x64 (ix2 u j) = _
  unfold shifted
  rw [pay6_apply]
  refine congrArg (fun s => colMean (blockSlice v0) j - s) ?_
  refine (broadcastTo_11_1b_apply _ broadcasts_S1x1_S1x64 u j).trans ?_
  refine (shapeCast_a_1a_apply _ shapeCasts_S1_S1x1 (0 : Fin 1) (0 : Fin 1)).trans ?_
  show max (Ideal.ofBits .f32 0xFF800000#32)
      (multiReduction (F := Ideal) .maximumf [1] S1 (k0_pay6 (F := Ideal) v0) 0xFF800000#32 reduces_S1x64_S1 (.inl rfl) rfl (ix1 (0 : Fin 1))) = _
  refine congrArg (fun s => max negInf s) ?_
  refine (Ideal.multiReduction_maximumf_single (k0_pay6 (F := Ideal) v0) _ reduces_S1x64_S1 _ _ (ix1 (0 : Fin 1))).trans ?_
  unfold maxOver negInf
  refine Finset.fold_congr fun k _ => ?_
  rw [Function.comp_apply, ins_row 0 k]
  exact pay6_apply v0 0 k

end Cert.KernelIdeal.KerValue

end
-- ==== Proof.KerGate.lean ====
/-
  The kernel's gate arithmetic, read index by index on the extended reals.

  A row [1,64] times a column [64,1] into a zero accumulator is the dot product of the two; a softmax
  written with a kept unit axis (maximum, subtraction, exponential, sum, quotient) is the specification's
  softmax; the gate built from it is the specification's gate; and the last payload is the input times
  (tanh of the outer product of the two gates, plus one).
-/
import proofs.«106315_j1580547973359_1_alg».proof.Proof.Gen.KernelIdeal.Skeleton
import proofs.«106315_j1580547973359_1_alg».proof.Proof.Spec
import proofs.«106315_j1580547973359_1_alg».proof.Proof.LibGateLayout
import Idealize.ShloMosaic.Lib.ValueLayout
import Idealize.ShloMosaic.PureOps.Ideal.Laws

noncomputable section

open Idealize.ShloMosaic Idealize.ShloMosaic.ValueIdx Cert.KernelIdeal Cert.KernelIdeal.Gen Cert.SpatialGate

namespace Cert.KernelIdeal.KerValue

/-! ## A row times a column -/

/-- The left operand's index keeps the result's row coordinate. -/
theorem lhs_row_col_0 (i : S1x1.Idx) (q : dot_S1x64_S64x1_S1x1_1_0_0_1_n_n.contr.Idx) :
    (dot_S1x64_S64x1_S1x1_1_0_0_1_n_n.lhsIdx i q 0).val = (i 0).val := by
  unfold DotDims.lhsIdx
  rw [dif_neg (show ¬(0 : Fin S1x64.rank) ∈ dot_S1x64_S64x1_S1x1_1_0_0_1_n_n.lhsBatch by decide), dif_pos (show (0 : Fin S1x64.rank) ∈ dot_S1x64_S64x1_S1x1_1_0_0_1_n_n.lhsNonContracting by decide)]
  rfl
/-- The left operand's second coordinate is the contraction index. -/
theorem lhs_row_col_1 (i : S1x1.Idx) (q : dot_S1x64_S64x1_S1x1_1_0_0_1_n_n.contr.Idx) :
    (dot_S1x64_S64x1_S1x1_1_0_0_1_n_n.lhsIdx i q 1).val = (q ⟨0, by decide⟩).val :=
  dot_S1x64_S64x1_S1x1_1_0_0_1_n_n.lhsIdx_val_of_single rfl i q
/-- The right operand's first coordinate is the contraction index. -/
theorem rhs_row_col_0 (i : S1x1.Idx) (q : dot_S1x64_S64x1_S1x1_1_0_0_1_n_n.contr.Idx) :
    (dot_S1x64_S64x1_S1x1_1_0_0_1_n_n.rhsIdx i q 0).val = (q ⟨0, by decide⟩).val :=
  dot_S1x64_S64x1_S1x1_1_0_0_1_n_n.rhsIdx_val_of_single rfl i q
/-- The right operand's index keeps the result's column coordinate. -/
theorem rhs_row_col_1 (i : S1x1.Idx) (q : dot_S1x64_S64x1_S1x1_1_0_0_1_n_n.contr.Idx) :
    (dot_S1x64_S64x1_S1x1_1_0_0_1_n_n.rhsIdx i q 1).val = (i 1).val := by
  unfold DotDims.rhsIdx
  rw [dif_neg (show ¬(1 : Fin S64x1.rank) ∈ dot_S1x64_S64x1_S1x1_1_0_0_1_n_n.rhsBatch by decide), dif_pos (show (1 : Fin S64x1.rank) ∈ dot_S1x64_S64x1_S1x1_1_0_0_1_n_n.rhsNonContracting by decide)]
  rfl

/-- A [1,64] x [64,1] product into a zero accumulator is the dot product of the row and the column. -/
theorem matmul_row_col (l : FVec Ideal S1x64 .f32) (r : FVec Ideal S64x1 .f32) (u u' : Fin 1) :
    matmul dot_S1x64_S64x1_S1x1_1_0_0_1_n_n (some .fp32) l r (constant S1x1 .f32 0x00000000#32) (ix2 u u')
      = dot (rowVec l) (colVec r) := by
  have hu : u = 0 := Subsingleton.elim _ _
  have hu' : u' = 0 := Subsingleton.elim _ _
  subst hu; subst hu'
  show FloatOps.matmul dot_S1x64_S64x1_S1x1_1_0_0_1_n_n (some .fp32) l r (constant S1x1 .f32 0x00000000#32) (ix2 0 0) = _
  rw [Ideal.matmul_constant_zero_apply, ← Equiv.sum_comp (ValueIdx.contrEquiv1 dot_S1x64_S64x1_S1x1_1_0_0_1_n_n 64 rfl rfl).symm]
  unfold Cert.SpatialGate.dot
  refine Finset.sum_congr rfl fun k _ => ?_
  have hk := ValueIdx.contrEquiv1_symm_val dot_S1x64_S64x1_S1x1_1_0_0_1_n_n 64 rfl rfl k
  have el : dot_S1x64_S64x1_S1x1_1_0_0_1_n_n.lhsIdx (ix2 (0 : Fin 1) (0 : Fin 1)) ((ValueIdx.contrEquiv1 dot_S1x64_S64x1_S1x1_1_0_0_1_n_n 64 rfl rfl).symm k) = ix2 (0 : Fin 1) k := funext fun a => Fin.ext (by
    match a with
    | ⟨0, _⟩ => exact lhs_row_col_0 _ _
    | ⟨1, _⟩ => exact (lhs_row_col_1 _ _).trans hk)
  have er : dot_S1x64_S64x1_S1x1_1_0_0_1_n_n.rhsIdx (ix2 (0 : Fin 1) (0 : Fin 1)) ((ValueIdx.contrEquiv1 dot_S1x64_S64x1_S1x1_1_0_0_1_n_n 64 rfl rfl).symm k) = ix2 k (0 : Fin 1) := funext fun a => Fin.ext (by
    match a with
    | ⟨0, _⟩ => exact (rhs_row_col_0 _ _).trans hk
    | ⟨1, _⟩ => exact rhs_row_col_1 _ _)
  rw [el, er]
  rfl

/-! ## Reductions along a row, the unit axis kept -/

/-- The index a reduction of a row `[1,64]` along its second axis reads at `k`. -/
theorem lift_row (u : Fin 1) (k : Fin 64) : reduces_S1x64_S1.lift (ix1 u) k = ix2 u k := by
  funext c
  apply Fin.ext
  match c with
  | ⟨0, _⟩ => rfl
  | ⟨1, _⟩ => rfl

/-- The sum along a row is the sum of its 64 entries. -/
theorem rowSum_apply (x : FVec Ideal S1x64 .f32) (u : Fin 1) :
    multiReduction .add [1] S1 x 0x00000000#32 reduces_S1x64_S1 (.inl rfl) rfl (ix1 u)
      = ∑ k : Fin 64, rowVec x k := by
  have hu : u = 0 := Subsingleton.elim _ _
  subst hu
  refine (Ideal.multiReduction_add_single x _ reduces_S1x64_S1 _ _ (ix1 (0 : Fin 1))).trans ?_
  exact Finset.sum_congr rfl fun k _ => congrArg x (lift_row 0 k)

/-- The maximum along a row is the maximum of its 64 entries, from -∞. -/
theorem rowMax_apply (x : FVec Ideal S1x64 .f32) (u : Fin 1) :
    multiReduction .maximumf [1] S1 x 0xFF800000#32 reduces_S1x64_S1 (.inl rfl) rfl (ix1 u)
      = maxOver (rowVec x) := by
  have hu : u = 0 := Subsingleton.elim _ _
  subst hu
  refine (Ideal.multiReduction_maximumf_single x _ reduces_S1x64_S1 _ _ (ix1 (0 : Fin 1))).trans ?_
  unfold maxOver
  exact Finset.fold_congr fun k _ => congrArg x (lift_row 0 k)

/-- A one-entry vector cast to a one-entry matrix and broadcast along a row reads its one entry everywhere. -/
theorem keep_apply (y : FVec Ideal S1 .f32) (u : Fin 1) (j : Fin 64) :
    broadcastTo S1x64 (shapeCast S1x1 y shapeCasts_S1_S1x1) broadcasts_S1x1_S1x64 (ix2 u j) = y (ix1 (0 : Fin 1)) :=
  (GateLayout.broadcastTo_11_1b_apply _ broadcasts_S1x1_S1x64 u j).trans
    (GateLayout.shapeCast_a_a1_apply y shapeCasts_S1_S1x1 (0 : Fin 1) (0 : Fin 1))

/-! ## The softmax -/

/-- A row less its maximum (taken from -∞, and once more against -∞). -/
theorem shift_apply (x : FVec Ideal S1x64 .f32) (u : Fin 1) (j : Fin 64) :
    subf x (broadcastTo S1x64 (shapeCast S1x1
        (maximumf (broadcast S1 (Scalar.ofBits .f32 0xFF800000#32))
          (multiReduction .maximumf [1] S1 x 0xFF800000#32 reduces_S1x64_S1 (.inl rfl) rfl))
        shapeCasts_S1_S1x1) broadcasts_S1x1_S1x64) (ix2 u j)
      = shifted (rowVec x) j := by
  have hu : u = 0 := Subsingleton.elim _ _
  subst hu
  unfold shifted
  refine congrArg (fun m => x (ix2 (0 : Fin 1) j) - m) ((keep_apply _ 0 j).trans ?_)
  exact congrArg (fun m => max negInf m) (rowMax_apply x 0)

/-- The exponentials of a row over their sum. -/
theorem expNorm_apply (e : FVec Ideal S1x64 .f32) (u : Fin 1) (j : Fin 64) :
    divf (exp e) (broadcastTo S1x64 (shapeCast S1x1
        (multiReduction .add [1] S1 (exp e) 0x00000000#32 reduces_S1x64_S1 (.inl rfl) rfl)
        shapeCasts_S1_S1x1) broadcasts_S1x1_S1x64) (ix2 u j)
      = expNorm (rowVec e) j := by
  have hu : u = 0 := Subsingleton.elim _ _
  subst hu
  unfold expNorm
  refine congrArg (fun d => Ideal.div (Ideal.exp (e (ix2 (0 : Fin 1) j))) d) ((keep_apply _ 0 j).trans ?_)
  exact rowSum_apply (exp e) 0

theorem pay11_apply (v19 : FVec Ideal S1x64 .f32) (u : Fin 1) (j : Fin 64) :
    k0_pay11 v19 (ix2 u j) = softmax (rowVec v19) j := by
  unfold k0_pay11
  refine (expNorm_apply _ u j).trans ?_
  unfold softmax
  exact congrArg (fun e => expNorm e j) (funext fun k => shift_apply v19 0 k)

/-! ## The gate -/

/-- The gate's last three lines on a row: the softmax `s`, the first product already along the row (`Y0`, constant
    `y0`), the second a one-entry matrix `y1`. -/
theorem gateRow_apply (s Y0 : FVec Ideal S1x64 .f32) (y1 : FVec Ideal S1x1 .f32) (w2 : FVec Ideal S64x1 .f32)
    (b0 b1 b2 : FVec Ideal S1x64 .f32) (y0 : EReal) (hy0 : ∀ j : Fin 64, Y0 (ix2 (0 : Fin 1) j) = y0) (u : Fin 1) (j : Fin 64) :
    addf (mulf (broadcastTo S1x64
        (matmul dot_S1x64_S64x1_S1x1_1_0_0_1_n_n (some .fp32) (tanh (addf (mulf (broadcastTo S1x64 y1 broadcasts_S1x1_S1x64) s) b1)) w2
          (constant S1x1 .f32 0x00000000#32)) broadcasts_S1x1_S1x64)
        (tanh (addf (mulf Y0 s) b0))) b2 (ix2 u j)
      = gateOf (rowVec s) y0 (y1 (ix2 (0 : Fin 1) (0 : Fin 1))) (colVec w2) (rowVec b0) (rowVec b1) (rowVec b2) j := by
  have hu : u = 0 := Subsingleton.elim _ _
  subst hu
  unfold gateOf
  refine congrArg₂ (· + ·) (congrArg₂ (· * ·) ?_ ?_) rfl
  · refine (GateLayout.broadcastTo_11_1b_apply _ broadcasts_S1x1_S1x64 0 j).trans ((matmul_row_col _ _ 0 0).trans ?_)
    refine congrArg (fun f => dot f (colVec w2)) (funext fun k => ?_)
    exact congrArg (fun y => Ideal.tanh (y * s (ix2 (0 : Fin 1) k) + b1 (ix2 (0 : Fin 1) k)))
      (GateLayout.broadcastTo_11_1b_apply y1 broadcasts_S1x1_S1x64 0 k)
  · exact congrArg (fun y => Ideal.tanh (y * s (ix2 (0 : Fin 1) j) + b0 (ix2 (0 : Fin 1) j))) (hy0 j)

theorem pay12_apply (v14 : FVec Ideal S1x64 .f32) (v52 : FVec Ideal S64x1 .f32) (u u' : Fin 1) :
    k0_pay12 v14 v52 (ix2 u u') = dot (rowVec v14) (colVec v52) := by
  unfold k0_pay12
  exact matmul_row_col v14 v52 u u'

theorem pay13_apply (v19 : FVec Ideal S1x64 .f32) (v51 : FVec Ideal S64x1 .f32) (u : Fin 1) (j : Fin 64) :
    k0_pay13 v19 v51 (ix2 u j) = dot (rowVec v19) (colVec v51) := by
  unfold k0_pay13
  exact (GateLayout.broadcastTo_11_1b_apply _ broadcasts_S1x1_S1x64 u j).trans (matmul_row_col v19 v51 0 0)

theorem pay10_apply (v7 v11 : FVec Ideal S1x64 .f32) (v20 v21 v22 : FVec Ideal S64x1 .f32) (v23 v24 v25 : FVec Ideal S1x64 .f32)
    (v31 : FVec Ideal S1x64 .f32) (u : Fin 1) (j : Fin 64) :
    k0_pay10 v7 v11 v20 v21 v22 v23 v24 v25 v31 (ix2 u j)
      = gateOf (expNorm (rowVec v31)) (dot (rowVec v11) (colVec v20)) (dot (rowVec v7) (colVec v21))
          (colVec v22) (rowVec v23) (rowVec v24) (rowVec v25) j := by
  unfold k0_pay10
  refine (gateRow_apply _ _ _ v22 v23 v24 v25 (dot (rowVec v11) (colVec v20))
    (fun k => (GateLayout.broadcastTo_11_1b_apply _ broadcasts_S1x1_S1x64 0 k).trans (matmul_row_col v11 v20 0 0)) u j).trans ?_
  refine congrArg₂ (fun s y1 => gateOf s (dot (rowVec v11) (colVec v20)) y1 (colVec v22) (rowVec v23) (rowVec v24) (rowVec v25) j)
    (funext fun k => expNorm_apply v31 0 k) (matmul_row_col v7 v21 0 0)

/-! ## The last payload -/

/-- The last payload: the row gate finished from its softmax `v67`, its two products (`y0`, already broadcast along the
    row as `v70`, and `v69`) and the h-weights, its outer product with the column gate `v50`, tanh, plus one, times x. -/
theorem pay1_apply (v1 : FVec Ideal S256x64x64 .f32) (v50 : FVec Ideal S1x64 .f32) (v53 : FVec Ideal S64x1 .f32)
    (v54 v55 v56 : FVec Ideal S1x64 .f32) (v67 : FVec Ideal S1x64 .f32) (v69 : FVec Ideal S1x1 .f32) (v70 : FVec Ideal S1x64 .f32)
    (y0 : EReal) (hy0 : ∀ j : Fin 64, v70 (ix2 (0 : Fin 1) j) = y0) (u : Fin 1) (c : Fin 256) (h w : Fin 64) :
    k0_pay1 v1 v50 v53 v54 v55 v56 v67 v69 v70 (ix4 u c h w)
      = v1 (ix3 c h w) * (Ideal.tanh (gateOf (rowVec v67) y0 (v69 (ix2 (0 : Fin 1) (0 : Fin 1))) (colVec v53)
            (rowVec v54) (rowVec v55) (rowVec v56) h * rowVec v50 w) + wOne) := by
  unfold k0_pay1
  refine (shapeCast_abc_1abc_apply _ shapeCasts_S256x64x64_S1x256x64x64 u c h w).trans ?_
  refine congrArg (fun t => v1 (ix3 c h w) * t) ((GateLayout.broadcastTo_1bc_abc_apply _ broadcasts_S1x64x64_S256x64x64 c h w).trans ?_)
  refine congrArg (fun t => t + wOne) ((shapeCast_ab_1ab_apply _ shapeCasts_S64x64_S1x64x64 (0 : Fin 1) h w).trans ?_)
  refine congrArg Ideal.tanh (congrArg₂ (· * ·) ?_ ?_)
  · refine (GateLayout.broadcastTo_a1_ab_apply _ broadcasts_S64x1_S64x64 h w).trans ?_
    refine (transpose_ix2_apply _ transposes_S1x64_p1_0_S64x1 h (0 : Fin 1)).trans ?_
    exact gateRow_apply v67 v70 v69 v53 v54 v55 v56 y0 hy0 0 h
  · exact broadcastTo_1b_ab_apply v50 broadcasts_S1x64_S64x64 h w

end Cert.KernelIdeal.KerValue

end
-- ==== Proof.KerValue.lean ====
/-
  The kernel body's stored value at an index is the specification's result for the loaded slice.

  The statistics of the block (the column and row maxima and means, the shifted column means) feed the two
  gates; the column gate is one payload, the row gate is finished inside the last payload from its softmax and
  its two products. Put together, the value stored at `(c, h, w)` is
  `x c h w * (tanh (gateH h * gateW w) + 1)`.
-/
import proofs.«106315_j1580547973359_1_alg».proof.Proof.KerStats
import proofs.«106315_j1580547973359_1_alg».proof.Proof.KerGate

noncomputable section

open Idealize.ShloMosaic Idealize.ShloMosaic.ValueIdx
open Cert.KernelIdeal Cert.KernelIdeal.Gen Cert.SpatialGate

namespace Cert.KernelIdeal.KerValue

/-- The body's one store, as the composition of payloads the run found, over thirteen loaded blocks. -/
def stored (x0 : FVec Ideal S1x256x64x64 .f32) (x1 x2 x3 : FVec Ideal S64x1 .f32) (x4 x5 x6 : FVec Ideal S1x64 .f32)
    (x7 x8 x9 : FVec Ideal S64x1 .f32) (x10 x11 x12 : FVec Ideal S1x64 .f32) : FVec Ideal S1x256x64x64 .f32 :=
  k0_pay1 (F := Ideal) (k0_pay2 x0) (k0_pay10 (k0_pay5 x0) (k0_pay6 x0) x1 x2 x3 x4 x5 x6 (k0_pay9 x0)) x9 x10 x11 x12
    (k0_pay11 (k0_pay8 x0)) (k0_pay12 (k0_pay7 x0) x8) (k0_pay13 (k0_pay8 x0) x7)

theorem stored_apply (x0 : FVec Ideal S1x256x64x64 .f32) (x1 x2 x3 : FVec Ideal S64x1 .f32) (x4 x5 x6 : FVec Ideal S1x64 .f32)
    (x7 x8 x9 : FVec Ideal S64x1 .f32) (x10 x11 x12 : FVec Ideal S1x64 .f32) (u : Fin 1) (c : Fin 256) (h w : Fin 64) :
    stored x0 x1 x2 x3 x4 x5 x6 x7 x8 x9 x10 x11 x12 (ix4 u c h w)
      = out (blockSlice x0) (colVec x1) (colVec x2) (colVec x3) (rowVec x4) (rowVec x5) (rowVec x6)
          (colVec x7) (colVec x8) (colVec x9) (rowVec x10) (rowVec x11) (rowVec x12) c h w := by
  have e5 : rowVec (k0_pay5 (F := Ideal) x0) = colMax (blockSlice x0) := funext fun j => pay5_apply x0 0 j
  have e6 : rowVec (k0_pay6 (F := Ideal) x0) = colMean (blockSlice x0) := funext fun j => pay6_apply x0 0 j
  have e7 : rowVec (k0_pay7 (F := Ideal) x0) = rowMax (blockSlice x0) := funext fun j => pay7_apply x0 0 j
  have e8 : rowVec (k0_pay8 (F := Ideal) x0) = rowMean (blockSlice x0) := funext fun j => pay8_apply x0 0 j
  have e9 : rowVec (k0_pay9 (F := Ideal) x0) = shifted (colMean (blockSlice x0)) := funext fun j => pay9_apply x0 0 j
  have hy0 : ∀ j : Fin 64, k0_pay13 (F := Ideal) (k0_pay8 x0) x7 (ix2 (0 : Fin 1) j) = dot (rowMean (blockSlice x0)) (colVec x7) :=
    fun j => by rw [pay13_apply, e8]
  have e50 : rowVec (k0_pay10 (F := Ideal) (k0_pay5 x0) (k0_pay6 x0) x1 x2 x3 x4 x5 x6 (k0_pay9 x0))
      = gate (colMean (blockSlice x0)) (colMax (blockSlice x0)) (colVec x1) (colVec x2) (colVec x3) (rowVec x4) (rowVec x5) (rowVec x6) :=
    funext fun j => by
      show k0_pay10 (F := Ideal) (k0_pay5 x0) (k0_pay6 x0) x1 x2 x3 x4 x5 x6 (k0_pay9 x0) (ix2 (0 : Fin 1) j) = _
      rw [pay10_apply, e5, e6, e9]
      rfl
  have e67 : rowVec (k0_pay11 (F := Ideal) (k0_pay8 x0)) = softmax (rowMean (blockSlice x0)) :=
    funext fun j => by
      show k0_pay11 (F := Ideal) (k0_pay8 x0) (ix2 (0 : Fin 1) j) = _
      rw [pay11_apply, e8]
  have e69 : k0_pay12 (F := Ideal) (k0_pay7 x0) x8 (ix2 (0 : Fin 1) (0 : Fin 1)) = dot (rowMax (blockSlice x0)) (colVec x8) := by
    rw [pay12_apply, e7]
  unfold stored
  refine (pay1_apply _ _ _ _ _ _ _ _ _ _ hy0 u c h w).trans ?_
  rw [e50, e67, e69, pay2_apply]
  rfl

end Cert.KernelIdeal.KerValue

end
-- ==== Proof.KerArray.lean ====
/-
  From blocks to the array: after the kernel's run the result array is the specification's `G` of the
  argument arrays.

  The grid has 32 points; point `t` stages batch `t` of the input (block index `(t, 0, 0, 0)`, the block one
  whole batch slice) and the twelve weight and bias arrays whole (block index `(0, 0)`), and writes its
  `[1, 256, 64, 64]` result back to batch `t` of the output. So what point `t` writes is block `t` of `G`, and
  the 32 blocks cover the array: index `i` lies in the block of point `i 0`.
-/
import proofs.«106315_j1580547973359_1_alg».proof.Proof.KerValue
import proofs.«106315_j1580547973359_1_alg».proof.Proof.Gen.KernelIdeal.Value

noncomputable section

open Idealize.ShloMosaic Idealize.ShloMosaic.ValueIdx Idealize.ShloMosaic.TcCoe Idealize.SL.Sem
open Cert.KernelIdeal Cert.KernelIdeal.Gen Cert.SpatialGate
open Idealize.ShloMosaic.Pipeline (Dat)

namespace Cert.KernelIdeal.KerValue

variable (m : (ℓ : Loc nD τ sig) → Buf (Elt Ideal) ℓ) (ρ : Dev nD → PrngReg)

theorem zeros4 : (![0, 0, 0, 0] : Fin 4 → Nat) = fun _ => 0 := funext fun a => by fin_cases a <;> rfl
theorem zeros2 : (![0, 0] : Fin 2 → Nat) = fun _ => 0 := funext fun a => by fin_cases a <;> rfl

/-- The result array as one function of the argument arrays as the region finds them. -/
abbrev result (c : Dev nD) : S32x256x64x64.Idx → EReal :=
  G (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12)

/-- The grid point as a batch number. -/
abbrev batch (t : Fin cfg0.N) : Fin 32 := ⟨t.val, N_0 ▸ t.isLt⟩

/-! ## The index maps, decided over the 32 points -/

theorem idx_x : ∀ t : Fin cfg0.N, win0_0.index t (0 : Fin 4) = t.val ∧ win0_0.index t (1 : Fin 4) = 0
    ∧ win0_0.index t (2 : Fin 4) = 0 ∧ win0_0.index t (3 : Fin 4) = 0 :=
  (by decide +kernel : ∀ t : Fin grid0.N, _)

theorem idx_o : ∀ t : Fin cfg0.N, win0_13.index t (0 : Fin 4) = t.val ∧ win0_13.index t (1 : Fin 4) = 0
    ∧ win0_13.index t (2 : Fin 4) = 0 ∧ win0_13.index t (3 : Fin 4) = 0 :=
  (by decide +kernel : ∀ t : Fin grid0.N, _)

theorem idx_w1 : ∀ t : Fin cfg0.N, win0_1.index t (0 : Fin 2) = 0 ∧ win0_1.index t (1 : Fin 2) = 0 :=
  (by decide +kernel : ∀ t : Fin grid0.N, _)

theorem idx_w2 : ∀ t : Fin cfg0.N, win0_2.index t (0 : Fin 2) = 0 ∧ win0_2.index t (1 : Fin 2) = 0 :=
  (by decide +kernel : ∀ t : Fin grid0.N, _)

theorem idx_w3 : ∀ t : Fin cfg0.N, win0_3.index t (0 : Fin 2) = 0 ∧ win0_3.index t (1 : Fin 2) = 0 :=
  (by decide +kernel : ∀ t : Fin grid0.N, _)

theorem idx_w4 : ∀ t : Fin cfg0.N, win0_4.index t (0 : Fin 2) = 0 ∧ win0_4.index t (1 : Fin 2) = 0 :=
  (by decide +kernel : ∀ t : Fin grid0.N, _)

theorem idx_w5 : ∀ t : Fin cfg0.N, win0_5.index t (0 : Fin 2) = 0 ∧ win0_5.index t (1 : Fin 2) = 0 :=
  (by decide +kernel : ∀ t : Fin grid0.N, _)

theorem idx_w6 : ∀ t : Fin cfg0.N, win0_6.index t (0 : Fin 2) = 0 ∧ win0_6.index t (1 : Fin 2) = 0 :=
  (by decide +kernel : ∀ t : Fin grid0.N, _)

theorem idx_w7 : ∀ t : Fin cfg0.N, win0_7.index t (0 : Fin 2) = 0 ∧ win0_7.index t (1 : Fin 2) = 0 :=
  (by decide +kernel : ∀ t : Fin grid0.N, _)

theorem idx_w8 : ∀ t : Fin cfg0.N, win0_8.index t (0 : Fin 2) = 0 ∧ win0_8.index t (1 : Fin 2) = 0 :=
  (by decide +kernel : ∀ t : Fin grid0.N, _)

theorem idx_w9 : ∀ t : Fin cfg0.N, win0_9.index t (0 : Fin 2) = 0 ∧ win0_9.index t (1 : Fin 2) = 0 :=
  (by decide +kernel : ∀ t : Fin grid0.N, _)

theorem idx_w10 : ∀ t : Fin cfg0.N, win0_10.index t (0 : Fin 2) = 0 ∧ win0_10.index t (1 : Fin 2) = 0 :=
  (by decide +kernel : ∀ t : Fin grid0.N, _)

theorem idx_w11 : ∀ t : Fin cfg0.N, win0_11.index t (0 : Fin 2) = 0 ∧ win0_11.index t (1 : Fin 2) = 0 :=
  (by decide +kernel : ∀ t : Fin grid0.N, _)

theorem idx_w12 : ∀ t : Fin cfg0.N, win0_12.index t (0 : Fin 2) = 0 ∧ win0_12.index t (1 : Fin 2) = 0 :=
  (by decide +kernel : ∀ t : Fin grid0.N, _)

/-! ## What each window's block holds -/

/-- The input block at point `t` is batch `t`'s slice. -/
theorem x_block (c : Dev nD) (t : Fin cfg0.N) : blockSlice (iblk m c 0 t) = slice (V m c main_arg0) (batch t) := by
  funext cc h w
  obtain ⟨e0, e1, e2, e3⟩ := idx_x t
  show V m c main_arg0 (((cfg0.win 0).blk t).view.emb (ix4 (0 : Fin 1) cc h w)) = V m c main_arg0 (ix4 (batch t) cc h w)
  congr 1
  funext a; apply Fin.ext
  match a with
  | ⟨0, _⟩ => show win0_0.index t (0 : Fin 4) * 1 + 1 * 0 = t.val; omega
  | ⟨1, _⟩ => show win0_0.index t (1 : Fin 4) * 256 + 1 * cc.val = cc.val; omega
  | ⟨2, _⟩ => show win0_0.index t (2 : Fin 4) * 64 + 1 * h.val = h.val; omega
  | ⟨3, _⟩ => show win0_0.index t (3 : Fin 4) * 64 + 1 * w.val = w.val; omega

theorem col_block1 (c : Dev nD) (t : Fin cfg0.N) : colVec (iblk m c 1 t) = colVec (V m c main_arg1) := by
  funext k
  obtain ⟨e0, e1⟩ := idx_w1 t
  show V m c main_arg1 (((cfg0.win 1).blk t).view.emb (ix2 k (0 : Fin 1))) = V m c main_arg1 (ix2 k (0 : Fin 1))
  congr 1
  funext a; apply Fin.ext
  match a with
  | ⟨0, _⟩ => show win0_1.index t (0 : Fin 2) * 64 + 1 * k.val = k.val; omega
  | ⟨1, _⟩ => show win0_1.index t (1 : Fin 2) * 1 + 1 * 0 = 0; omega

theorem col_block2 (c : Dev nD) (t : Fin cfg0.N) : colVec (iblk m c 2 t) = colVec (V m c main_arg2) := by
  funext k
  obtain ⟨e0, e1⟩ := idx_w2 t
  show V m c main_arg2 (((cfg0.win 2).blk t).view.emb (ix2 k (0 : Fin 1))) = V m c main_arg2 (ix2 k (0 : Fin 1))
  congr 1
  funext a; apply Fin.ext
  match a with
  | ⟨0, _⟩ => show win0_2.index t (0 : Fin 2) * 64 + 1 * k.val = k.val; omega
  | ⟨1, _⟩ => show win0_2.index t (1 : Fin 2) * 1 + 1 * 0 = 0; omega

theorem col_block3 (c : Dev nD) (t : Fin cfg0.N) : colVec (iblk m c 3 t) = colVec (V m c main_arg3) := by
  funext k
  obtain ⟨e0, e1⟩ := idx_w3 t
  show V m c main_arg3 (((cfg0.win 3).blk t).view.emb (ix2 k (0 : Fin 1))) = V m c main_arg3 (ix2 k (0 : Fin 1))
  congr 1
  funext a; apply Fin.ext
  match a with
  | ⟨0, _⟩ => show win0_3.index t (0 : Fin 2) * 64 + 1 * k.val = k.val; omega
  | ⟨1, _⟩ => show win0_3.index t (1 : Fin 2) * 1 + 1 * 0 = 0; omega

theorem col_block7 (c : Dev nD) (t : Fin cfg0.N) : colVec (iblk m c 7 t) = colVec (V m c main_arg7) := by
  funext k
  obtain ⟨e0, e1⟩ := idx_w7 t
  show V m c main_arg7 (((cfg0.win 7).blk t).view.emb (ix2 k (0 : Fin 1))) = V m c main_arg7 (ix2 k (0 : Fin 1))
  congr 1
  funext a; apply Fin.ext
  match a with
  | ⟨0, _⟩ => show win0_7.index t (0 : Fin 2) * 64 + 1 * k.val = k.val; omega
  | ⟨1, _⟩ => show win0_7.index t (1 : Fin 2) * 1 + 1 * 0 = 0; omega

theorem col_block8 (c : Dev nD) (t : Fin cfg0.N) : colVec (iblk m c 8 t) = colVec (V m c main_arg8) := by
  funext k
  obtain ⟨e0, e1⟩ := idx_w8 t
  show V m c main_arg8 (((cfg0.win 8).blk t).view.emb (ix2 k (0 : Fin 1))) = V m c main_arg8 (ix2 k (0 : Fin 1))
  congr 1
  funext a; apply Fin.ext
  match a with
  | ⟨0, _⟩ => show win0_8.index t (0 : Fin 2) * 64 + 1 * k.val = k.val; omega
  | ⟨1, _⟩ => show win0_8.index t (1 : Fin 2) * 1 + 1 * 0 = 0; omega

theorem col_block9 (c : Dev nD) (t : Fin cfg0.N) : colVec (iblk m c 9 t) = colVec (V m c main_arg9) := by
  funext k
  obtain ⟨e0, e1⟩ := idx_w9 t
  show V m c main_arg9 (((cfg0.win 9).blk t).view.emb (ix2 k (0 : Fin 1))) = V m c main_arg9 (ix2 k (0 : Fin 1))
  congr 1
  funext a; apply Fin.ext
  match a with
  | ⟨0, _⟩ => show win0_9.index t (0 : Fin 2) * 64 + 1 * k.val = k.val; omega
  | ⟨1, _⟩ => show win0_9.index t (1 : Fin 2) * 1 + 1 * 0 = 0; omega

theorem row_block4 (c : Dev nD) (t : Fin cfg0.N) : rowVec (iblk m c 4 t) = rowVec (V m c main_arg4) := by
  funext k
  obtain ⟨e0, e1⟩ := idx_w4 t
  show V m c main_arg4 (((cfg0.win 4).blk t).view.emb (ix2 (0 : Fin 1) k)) = V m c main_arg4 (ix2 (0 : Fin 1) k)
  congr 1
  funext a; apply Fin.ext
  match a with
  | ⟨0, _⟩ => show win0_4.index t (0 : Fin 2) * 1 + 1 * 0 = 0; omega
  | ⟨1, _⟩ => show win0_4.index t (1 : Fin 2) * 64 + 1 * k.val = k.val; omega

theorem row_block5 (c : Dev nD) (t : Fin cfg0.N) : rowVec (iblk m c 5 t) = rowVec (V m c main_arg5) := by
  funext k
  obtain ⟨e0, e1⟩ := idx_w5 t
  show V m c main_arg5 (((cfg0.win 5).blk t).view.emb (ix2 (0 : Fin 1) k)) = V m c main_arg5 (ix2 (0 : Fin 1) k)
  congr 1
  funext a; apply Fin.ext
  match a with
  | ⟨0, _⟩ => show win0_5.index t (0 : Fin 2) * 1 + 1 * 0 = 0; omega
  | ⟨1, _⟩ => show win0_5.index t (1 : Fin 2) * 64 + 1 * k.val = k.val; omega

theorem row_block6 (c : Dev nD) (t : Fin cfg0.N) : rowVec (iblk m c 6 t) = rowVec (V m c main_arg6) := by
  funext k
  obtain ⟨e0, e1⟩ := idx_w6 t
  show V m c main_arg6 (((cfg0.win 6).blk t).view.emb (ix2 (0 : Fin 1) k)) = V m c main_arg6 (ix2 (0 : Fin 1) k)
  congr 1
  funext a; apply Fin.ext
  match a with
  | ⟨0, _⟩ => show win0_6.index t (0 : Fin 2) * 1 + 1 * 0 = 0; omega
  | ⟨1, _⟩ => show win0_6.index t (1 : Fin 2) * 64 + 1 * k.val = k.val; omega

theorem row_block10 (c : Dev nD) (t : Fin cfg0.N) : rowVec (iblk m c 10 t) = rowVec (V m c main_arg10) := by
  funext k
  obtain ⟨e0, e1⟩ := idx_w10 t
  show V m c main_arg10 (((cfg0.win 10).blk t).view.emb (ix2 (0 : Fin 1) k)) = V m c main_arg10 (ix2 (0 : Fin 1) k)
  congr 1
  funext a; apply Fin.ext
  match a with
  | ⟨0, _⟩ => show win0_10.index t (0 : Fin 2) * 1 + 1 * 0 = 0; omega
  | ⟨1, _⟩ => show win0_10.index t (1 : Fin 2) * 64 + 1 * k.val = k.val; omega

theorem row_block11 (c : Dev nD) (t : Fin cfg0.N) : rowVec (iblk m c 11 t) = rowVec (V m c main_arg11) := by
  funext k
  obtain ⟨e0, e1⟩ := idx_w11 t
  show V m c main_arg11 (((cfg0.win 11).blk t).view.emb (ix2 (0 : Fin 1) k)) = V m c main_arg11 (ix2 (0 : Fin 1) k)
  congr 1
  funext a; apply Fin.ext
  match a with
  | ⟨0, _⟩ => show win0_11.index t (0 : Fin 2) * 1 + 1 * 0 = 0; omega
  | ⟨1, _⟩ => show win0_11.index t (1 : Fin 2) * 64 + 1 * k.val = k.val; omega

theorem row_block12 (c : Dev nD) (t : Fin cfg0.N) : rowVec (iblk m c 12 t) = rowVec (V m c main_arg12) := by
  funext k
  obtain ⟨e0, e1⟩ := idx_w12 t
  show V m c main_arg12 (((cfg0.win 12).blk t).view.emb (ix2 (0 : Fin 1) k)) = V m c main_arg12 (ix2 (0 : Fin 1) k)
  congr 1
  funext a; apply Fin.ext
  match a with
  | ⟨0, _⟩ => show win0_12.index t (0 : Fin 2) * 1 + 1 * 0 = 0; omega
  | ⟨1, _⟩ => show win0_12.index t (1 : Fin 2) * 64 + 1 * k.val = k.val; omega

/-! ## What a point writes back, and the array -/

/-- Point `t` writes block `t` of `G` of the argument arrays. -/
theorem flushed_eq (c : Dev nD) (t : Fin cfg0.N) :
    (dats m 0 c).flushed 13 t = ((cfg0.win 13).blk t).view.read (Elt Ideal) (result m c) := by
  rw [Cert.KernelIdeal.Value.flushed13]
  unfold out0_13
  rw [View.canon_unit_zero zeros4]
  simp only [View.ld_unit_zero (S := S1x256x64x64) zeros4, View.ld_unit_zero (S := S64x1) zeros2,
    View.ld_unit_zero (S := S1x64) zeros2]
  funext j
  obtain ⟨u, cc, h, w, rfl⟩ : ∃ (u : Fin 1) (cc : Fin 256) (h w : Fin 64), j = ix4 u cc h w :=
    ⟨j 0, j 1, j 2, j 3, eq_ix4 j⟩
  obtain ⟨o0, o1, o2, o3⟩ := idx_o t
  show stored (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix4 u cc h w)
      = result m c (((cfg0.win 13).blk t).view.emb (ix4 u cc h w))
  refine (stored_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) u cc h w).trans ?_
  rw [x_block m c t, col_block1 m c t, col_block2 m c t, col_block3 m c t, row_block4 m c t, row_block5 m c t, row_block6 m c t,
    col_block7 m c t, col_block8 m c t, col_block9 m c t, row_block10 m c t, row_block11 m c t, row_block12 m c t]
  have hemb : ((cfg0.win 13).blk t).view.emb (ix4 u cc h w) = ix4 (batch t) cc h w := by
    funext a; apply Fin.ext
    have hu := u.isLt
    match a with
    | ⟨0, _⟩ => show win0_13.index t (0 : Fin 4) * 1 + 1 * u.val = t.val; omega
    | ⟨1, _⟩ => show win0_13.index t (1 : Fin 4) * 256 + 1 * cc.val = cc.val; omega
    | ⟨2, _⟩ => show win0_13.index t (2 : Fin 4) * 64 + 1 * h.val = h.val; omega
    | ⟨3, _⟩ => show win0_13.index t (3 : Fin 4) * 64 + 1 * w.val = w.val; omega
  rw [hemb]
  exact (G_apply (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) (batch t) cc h w).symm

/-- An index of the array is in point `t`'s block iff each coordinate is in the block's range on its axis. -/
theorem mem_block (t : Fin cfg0.N) (i : S32x256x64x64.Idx) :
    i ∈ ((cfg0.win 13).blk t).view.set ↔ ∀ a : Fin 4, win0_13.index t a * S1x256x64x64.size a ≤ (i a).val
      ∧ (i a).val < win0_13.index t a * S1x256x64x64.size a + S1x256x64x64.size a := by
  show i ∈ ((View.whole main_v0).slice (win0_13.rect t)).set ↔ _
  rw [View.set_slice_whole, Rect.mem_set_unit]
  exact Iff.rfl

/-- Every index lies in the block of the point that is its batch coordinate. -/
theorem covered (i : S32x256x64x64.Idx) :
    ∃ t : Fin cfg0.N, (cfg0.win 13).flush t = true ∧ i ∈ ((cfg0.win 13).blk t).view.set := by
  have h0 : (i 0).val < 32 := (i 0).isLt
  have h1 : (i 1).val < 256 := (i 1).isLt
  have h2 : (i 2).val < 64 := (i 2).isLt
  have h3 : (i 3).val < 64 := (i 3).isLt
  have hN : (i 0).val < cfg0.N := by rw [show cfg0.N = 32 from N_0]; exact h0
  refine ⟨⟨(i 0).val, hN⟩, flush0_13 _, ?_⟩
  rw [mem_block]
  obtain ⟨o0', o1, o2, o3⟩ := idx_o ⟨(i 0).val, hN⟩
  have o0 : win0_13.index ⟨(i 0).val, hN⟩ (0 : Fin 4) = (i 0).val := o0'
  intro a
  match a with
  | ⟨0, _⟩ => show win0_13.index _ (0 : Fin 4) * 1 ≤ (i 0).val ∧ (i 0).val < win0_13.index _ (0 : Fin 4) * 1 + 1; rw [o0]; omega
  | ⟨1, _⟩ => show win0_13.index _ (1 : Fin 4) * 256 ≤ (i 1).val ∧ (i 1).val < win0_13.index _ (1 : Fin 4) * 256 + 256; rw [o1]; omega
  | ⟨2, _⟩ => show win0_13.index _ (2 : Fin 4) * 64 ≤ (i 2).val ∧ (i 2).val < win0_13.index _ (2 : Fin 4) * 64 + 64; rw [o2]; omega
  | ⟨3, _⟩ => show win0_13.index _ (3 : Fin 4) * 64 ≤ (i 3).val ∧ (i 3).val < win0_13.index _ (3 : Fin 4) * 64 + 64; rw [o3]; omega

/-- The result array after the run. -/
theorem final (c : Dev nD) : (dats m 0 c).arrAt 13 cfg0.N = result m c :=
  (dats m 0 c).arrAt_eq_of_cover 13 (result m c) (fun t _ => flushed_eq m c t) covered

/-- The kernel's run with its result array named: `G` of the arguments, the arguments unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨(h c).1.trans (final m c), (h c).2⟩) (Cert.KernelIdeal.Value.run_blocks m ρ)

end Cert.KernelIdeal.KerValue

end
-- ==== Proof.RefStats.lean ====
/-
  The reference's six statistics, read at explicit coordinates as the specification's.

  For batch `b` the reference reduces the input over the channel axis (a maximum from -∞, and a sum from zero divided
  by the word of 256), then reduces each of those two 64 × 64 tables once over its first axis and once over its second
  (a maximum from -∞, and a sum from zero divided by the word of 64). A reduction over one axis at a result index is
  the fold, or the sum, over that axis's coordinates of the operand at the result index with the coordinate put back
  in; at literal extents that index computes, so each stage is the specification's definition term by term.
-/
import proofs.«106315_j1580547973359_1_alg».proof.Proof.Gen.ReferenceIdeal.Read
import proofs.«106315_j1580547973359_1_alg».proof.Proof.Spec
import Idealize.ShloMosaic.Lib.ValueIdx
import Idealize.ShloMosaic.PureOps.Ideal.Laws
import Idealize.ShloMosaic.PureOps.Reduce

noncomputable section

namespace Cert.ReferenceIdeal.RefValue

open Idealize.ShloMosaic Idealize.ShloMosaic.ValueIdx Cert.ReferenceIdeal Cert.ReferenceIdeal.Gen Cert.ReferenceIdeal.Read Cert.SpatialGate

/-! ## Where a reduction's result index sits in its operand -/

/-- Over the channel axis: `(b, h, w)` with channel `k` put back is `(b, k, h, w)`. -/
theorem lift_chan (b : Fin 32) (h w : Fin 64) (k : Fin 256) :
    (show S32x256x64x64.Reduces [1] S32x64x64 by decide).lift (ix3 b h w) k = ix4 b k h w :=
  funext fun a => Fin.ext (by match a with | ⟨0, _⟩ => rfl | ⟨1, _⟩ => rfl | ⟨2, _⟩ => rfl | ⟨3, _⟩ => rfl)

/-- Over the table's first axis: `(b, w)` with row `k` put back is `(b, k, w)`. -/
theorem lift_col (b : Fin 32) (w k : Fin 64) :
    (show S32x64x64.Reduces [1] S32x64 by decide).lift (ix2 b w) k = ix3 b k w :=
  funext fun a => Fin.ext (by match a with | ⟨0, _⟩ => rfl | ⟨1, _⟩ => rfl | ⟨2, _⟩ => rfl)

/-- Over the table's second axis: `(b, h)` with column `k` put back is `(b, h, k)`. -/
theorem lift_row (b : Fin 32) (h k : Fin 64) :
    (show S32x64x64.Reduces [2] S32x64 by decide).lift (ix2 b h) k = ix3 b h k :=
  funext fun a => Fin.ext (by match a with | ⟨0, _⟩ => rfl | ⟨1, _⟩ => rfl | ⟨2, _⟩ => rfl)

theorem idx_v1 (b : Fin 32) (h w : Fin 64) (k : Fin 256) : idx_main_v1 (ix3 b h w) k = ix4 b k h w :=
  funext fun a => Fin.ext (by match a with | ⟨0, _⟩ => rfl | ⟨1, _⟩ => rfl | ⟨2, _⟩ => rfl | ⟨3, _⟩ => rfl)

theorem idx_v5 (b : Fin 32) (w k : Fin 64) : idx_main_v5 (ix2 b w) k = ix3 b k w :=
  funext fun a => Fin.ext (by match a with | ⟨0, _⟩ => rfl | ⟨1, _⟩ => rfl | ⟨2, _⟩ => rfl)

theorem idx_v9 (b : Fin 32) (h k : Fin 64) : idx_main_v9 (ix2 b h) k = ix3 b h k :=
  funext fun a => Fin.ext (by match a with | ⟨0, _⟩ => rfl | ⟨1, _⟩ => rfl | ⟨2, _⟩ => rfl)

/-! ## Over the channels -/

/-- The channel maximum: the fold of `max` from -∞ over the 256 channels. -/
theorem v0_apply (x0 : FVec Ideal S32x256x64x64 .f32) (b : Fin 32) (h w : Fin 64) :
    val_main_v0 (F := Ideal) x0 (ix3 b h w) = chanMax (slice x0 b) h w := by
  unfold val_main_v0
  rw [Host.reduce_eq_fold_single FloatOps.maximumf x0 _ reducesTo_S32x256x64x64_S32x64x64_d1 (by decide) h_S_]
  unfold chanMax maxOver negInf slice
  refine Finset.fold_congr fun k _ => ?_
  exact congrArg x0 (lift_chan b h w k)

/-- The channel mean: zero plus the sum over the 256 channels, divided by the word of 256. -/
theorem v3_apply (x0 : FVec Ideal S32x256x64x64 .f32) (b : Fin 32) (h w : Fin 64) :
    val_main_v3 (F := Ideal) x0 (ix3 b h w) = chanMean (slice x0 b) h w := by
  rw [val_main_v3_apply, val_main_v1_apply, val_main_v2_apply, val_main_cst_1_apply, val_main_cst_0_apply,
    Ideal.hostDivf_def, Ideal.ofBits_def, Ideal.ofBits_def, ofBits_zero, zero_add]
  unfold chanMean w256 slice
  refine congrArg (Ideal.div · _) (Finset.sum_congr rfl fun k _ => ?_)
  exact congrArg x0 (idx_v1 b h w k)

/-! ## Down the columns and along the rows -/

/-- The maximum down column `w` of the channel maxima. -/
theorem v4_apply (x0 : FVec Ideal S32x256x64x64 .f32) (b : Fin 32) (w : Fin 64) :
    val_main_v4 (F := Ideal) x0 (ix2 b w) = colMax (slice x0 b) w := by
  unfold val_main_v4
  rw [Host.reduce_eq_fold_single FloatOps.maximumf _ _ reducesTo_S32x64x64_S32x64_d1 (by decide) h_S_]
  unfold colMax maxOver negInf
  refine Finset.fold_congr fun k _ => ?_
  rw [Function.comp_apply, lift_col b w k]
  exact v0_apply x0 b k w

/-- The mean down column `w` of the channel means. -/
theorem v7_apply (x0 : FVec Ideal S32x256x64x64 .f32) (b : Fin 32) (w : Fin 64) :
    val_main_v7 (F := Ideal) x0 (ix2 b w) = colMean (slice x0 b) w := by
  rw [val_main_v7_apply, val_main_v5_apply, val_main_v6_apply, val_main_cst_4_apply, val_main_cst_3_apply,
    Ideal.hostDivf_def, Ideal.ofBits_def, Ideal.ofBits_def, ofBits_zero, zero_add]
  unfold colMean w64
  refine congrArg (Ideal.div · _) (Finset.sum_congr rfl fun k _ => ?_)
  exact (congrArg (val_main_v3 (F := Ideal) x0) (idx_v5 b w k)).trans (v3_apply x0 b k w)

/-- The maximum along row `h` of the channel maxima. -/
theorem v8_apply (x0 : FVec Ideal S32x256x64x64 .f32) (b : Fin 32) (h : Fin 64) :
    val_main_v8 (F := Ideal) x0 (ix2 b h) = rowMax (slice x0 b) h := by
  unfold val_main_v8
  rw [Host.reduce_eq_fold_single FloatOps.maximumf _ _ reducesTo_S32x64x64_S32x64_d2 (by decide) h_S_]
  unfold rowMax maxOver negInf
  refine Finset.fold_congr fun k _ => ?_
  rw [Function.comp_apply, lift_row b h k]
  exact v0_apply x0 b h k

/-- The mean along row `h` of the channel means. -/
theorem v11_apply (x0 : FVec Ideal S32x256x64x64 .f32) (b : Fin 32) (h : Fin 64) :
    val_main_v11 (F := Ideal) x0 (ix2 b h) = rowMean (slice x0 b) h := by
  rw [val_main_v11_apply, val_main_v9_apply, val_main_v10_apply, val_main_cst_7_apply, val_main_cst_6_apply,
    Ideal.hostDivf_def, Ideal.ofBits_def, Ideal.ofBits_def, ofBits_zero, zero_add]
  unfold rowMean w64
  refine congrArg (Ideal.div · _) (Finset.sum_congr rfl fun k _ => ?_)
  exact (congrArg (val_main_v3 (F := Ideal) x0) (idx_v9 b h k)).trans (v3_apply x0 b h k)

end Cert.ReferenceIdeal.RefValue

end
-- ==== Proof.RefGate.lean ====
/-
  The reference's two gates, read at explicit coordinates as the specification's `gate`.

  On the column statistics of batch `b` (and again, operation for operation, on the row statistics with the other six
  weights) the reference takes the maximum of the mean vector from -∞, takes the maximum of that with -∞ once more,
  subtracts it from every entry, exponentiates, and divides by zero plus the sum of the 64 exponentials: the
  specification's `softmax`. Two contractions with a weight column over the 64 entries are the two `dot`s; each,
  repeated along the row, multiplies the softmax, a bias row is added and `tanh` taken; the second of those rows is
  contracted with the third weight column, and that number times the first row plus the third bias row is the gate.
  Every repetition along an axis of extent one reads its operand at coordinate zero there, so each stage is one
  equation between values at named coordinates.
-/
import proofs.«106315_j1580547973359_1_alg».proof.Proof.RefStats
import proofs.«106315_j1580547973359_1_alg».proof.Proof.Gen.ReferenceIdeal.Read
import proofs.«106315_j1580547973359_1_alg».proof.Proof.Spec
import Idealize.ShloMosaic.Lib.ValueIdx
import Idealize.ShloMosaic.PureOps.Ideal.Laws
import Idealize.ShloMosaic.PureOps.Reduce

noncomputable section

namespace Cert.ReferenceIdeal.RefValue

open Idealize.ShloMosaic Idealize.ShloMosaic.ValueIdx Cert.ReferenceIdeal Cert.ReferenceIdeal.Gen Cert.ReferenceIdeal.Read Cert.SpatialGate

/-- Two indices of rank one are equal when their coordinate is. -/
local macro "idx1" : tactic =>
  `(tactic| exact funext fun a => Fin.ext (by match a with | ⟨0, _⟩ => rfl))
/-- Two indices of rank two are equal when their coordinates are. -/
local macro "idx2" : tactic =>
  `(tactic| exact funext fun a => Fin.ext (by match a with | ⟨0, _⟩ => rfl | ⟨1, _⟩ => rfl))

/-- Over a vector's one axis: `(b)` with entry `k` put back is `(b, k)`. -/
theorem lift_vec (b : Fin 32) (k : Fin 64) :
    (show S32x64.Reduces [1] S32 by decide).lift (ix1 b) k = ix2 b k := by idx2

/-! ## The column gate: the softmax of the column means -/

theorem v12_apply (x0 : FVec Ideal S32x256x64x64 .f32) (b : Fin 32) :
    val_main_v12 (F := Ideal) x0 (ix1 b) = maxOver (colMean (slice x0 b)) := by
  unfold val_main_v12
  rw [Host.reduce_eq_fold_single FloatOps.maximumf _ _ reducesTo_S32x64_S32_d1 (by decide) h_S_]
  unfold maxOver negInf
  refine Finset.fold_congr fun k _ => ?_
  rw [Function.comp_apply, lift_vec b k]
  exact v7_apply x0 b k

/-- What is subtracted: the maximum of -∞ and the vector's maximum, the same at every entry. -/
theorem v16_apply (x0 : FVec Ideal S32x256x64x64 .f32) (b : Fin 32) (j : Fin 64) :
    val_main_v16 (F := Ideal) x0 (ix2 b j) = max negInf (maxOver (colMean (slice x0 b))) := by
  rw [val_main_v16_apply, val_main_v15_apply, show idx_main_v15 (idx_main_v16 (ix2 b j)) = ix1 b from by idx1,
    val_main_v14_apply, val_main_v13_apply, val_main_cst_9_apply, v12_apply, Ideal.maximumf_def, Ideal.ofBits_def]
  rfl

theorem v18_apply (x0 : FVec Ideal S32x256x64x64 .f32) (b : Fin 32) (j : Fin 64) :
    val_main_v18 (F := Ideal) x0 (ix2 b j) = Ideal.exp (shifted (colMean (slice x0 b)) j) := by
  rw [val_main_v18_apply, val_main_v17_apply, v7_apply, v16_apply, Ideal.hostUnary_exp_def, Ideal.subf_def]
  rfl

/-- The divisor: zero plus the sum of the 64 exponentials, the same at every entry. -/
theorem v21_apply (x0 : FVec Ideal S32x256x64x64 .f32) (b : Fin 32) (j : Fin 64) :
    val_main_v21 (F := Ideal) x0 (ix2 b j) = ∑ k : Fin 64, Ideal.exp (shifted (colMean (slice x0 b)) k) := by
  rw [val_main_v21_apply, val_main_v20_apply, show idx_main_v20 (idx_main_v21 (ix2 b j)) = ix1 b from by idx1,
    val_main_v19_apply, val_main_cst_10_apply, Ideal.ofBits_def, ofBits_zero, zero_add]
  refine Finset.sum_congr rfl fun k _ => ?_
  rw [show idx_main_v19 (ix1 b) k = ix2 b k from by idx2]
  exact v18_apply x0 b k

theorem v22_apply (x0 : FVec Ideal S32x256x64x64 .f32) (b : Fin 32) (j : Fin 64) :
    val_main_v22 (F := Ideal) x0 (ix2 b j) = softmax (colMean (slice x0 b)) j := by
  rw [val_main_v22_apply, v18_apply, v21_apply, Ideal.hostDivf_def]
  rfl

/-! ## The column gate: the two products with weight columns, and the two tanh rows -/

theorem v23_apply (x0 : FVec Ideal S32x256x64x64 .f32) (x1 : FVec Ideal S64x1 .f32) (b : Fin 32) :
    val_main_v23 (F := Ideal) x0 x1 (ix2 b (0 : Fin 1)) = dot (colMean (slice x0 b)) (colVec x1) := by
  rw [val_main_v23_apply]
  unfold dot colVec
  refine Finset.sum_congr rfl fun k _ => ?_
  rw [show lidx_main_v23 (ix2 b (0 : Fin 1)) k = ix2 b k from by idx2,
    show ridx_main_v23 (ix2 b (0 : Fin 1)) k = ix2 k (0 : Fin 1) from by idx2, v7_apply]

theorem v24_apply (x0 : FVec Ideal S32x256x64x64 .f32) (x2 : FVec Ideal S64x1 .f32) (b : Fin 32) :
    val_main_v24 (F := Ideal) x0 x2 (ix2 b (0 : Fin 1)) = dot (colMax (slice x0 b)) (colVec x2) := by
  rw [val_main_v24_apply]
  unfold dot colVec
  refine Finset.sum_congr rfl fun k _ => ?_
  rw [show lidx_main_v24 (ix2 b (0 : Fin 1)) k = ix2 b k from by idx2,
    show ridx_main_v24 (ix2 b (0 : Fin 1)) k = ix2 k (0 : Fin 1) from by idx2, v4_apply]

theorem v29_apply (x0 : FVec Ideal S32x256x64x64 .f32) (x1 : FVec Ideal S64x1 .f32) (x4 : FVec Ideal S1x64 .f32)
    (b : Fin 32) (j : Fin 64) :
    val_main_v29 (F := Ideal) x0 x1 x4 (ix2 b j)
      = Ideal.tanh (dot (colMean (slice x0 b)) (colVec x1) * softmax (colMean (slice x0 b)) j + rowVec x4 j) := by
  rw [val_main_v29_apply, val_main_v28_apply, val_main_v26_apply, val_main_v25_apply, val_main_v27_apply,
    show idx_main_v25 (ix2 b j) = ix2 b (0 : Fin 1) from by idx2,
    show idx_main_v27 (ix2 b j) = ix2 (0 : Fin 1) j from by idx2,
    v23_apply, v22_apply, Ideal.hostUnary_tanh_def, Ideal.addf_def, Ideal.mulf_def]
  rfl

theorem v34_apply (x0 : FVec Ideal S32x256x64x64 .f32) (x2 : FVec Ideal S64x1 .f32) (x5 : FVec Ideal S1x64 .f32)
    (b : Fin 32) (j : Fin 64) :
    val_main_v34 (F := Ideal) x0 x2 x5 (ix2 b j)
      = Ideal.tanh (dot (colMax (slice x0 b)) (colVec x2) * softmax (colMean (slice x0 b)) j + rowVec x5 j) := by
  rw [val_main_v34_apply, val_main_v33_apply, val_main_v31_apply, val_main_v30_apply, val_main_v32_apply,
    show idx_main_v30 (ix2 b j) = ix2 b (0 : Fin 1) from by idx2,
    show idx_main_v32 (ix2 b j) = ix2 (0 : Fin 1) j from by idx2,
    v24_apply, v22_apply, Ideal.hostUnary_tanh_def, Ideal.addf_def, Ideal.mulf_def]
  rfl

/-! ## The column gate -/

theorem v35_apply (x0 : FVec Ideal S32x256x64x64 .f32) (x2 x3 : FVec Ideal S64x1 .f32) (x5 : FVec Ideal S1x64 .f32)
    (b : Fin 32) :
    val_main_v35 (F := Ideal) x0 x2 x3 x5 (ix2 b (0 : Fin 1))
      = dot (fun k => Ideal.tanh (dot (colMax (slice x0 b)) (colVec x2) * softmax (colMean (slice x0 b)) k + rowVec x5 k))
          (colVec x3) := by
  rw [val_main_v35_apply]
  unfold dot colVec
  refine Finset.sum_congr rfl fun k _ => ?_
  rw [show lidx_main_v35 (ix2 b (0 : Fin 1)) k = ix2 b k from by idx2,
    show ridx_main_v35 (ix2 b (0 : Fin 1)) k = ix2 k (0 : Fin 1) from by idx2, v34_apply]
  rfl

theorem v39_apply (x0 : FVec Ideal S32x256x64x64 .f32) (x1 x2 x3 : FVec Ideal S64x1 .f32) (x4 x5 x6 : FVec Ideal S1x64 .f32)
    (b : Fin 32) (j : Fin 64) :
    val_main_v39 (F := Ideal) x0 x1 x2 x3 x4 x5 x6 (ix2 b j)
      = gate (colMean (slice x0 b)) (colMax (slice x0 b)) (colVec x1) (colVec x2) (colVec x3)
          (rowVec x4) (rowVec x5) (rowVec x6) j := by
  rw [val_main_v39_apply, val_main_v37_apply, val_main_v36_apply, val_main_v38_apply,
    show idx_main_v36 (ix2 b j) = ix2 b (0 : Fin 1) from by idx2,
    show idx_main_v38 (ix2 b j) = ix2 (0 : Fin 1) j from by idx2,
    v35_apply, v29_apply, Ideal.addf_def, Ideal.mulf_def]
  rfl

/-! ## The row gate: the softmax of the row means -/

theorem v40_apply (x0 : FVec Ideal S32x256x64x64 .f32) (b : Fin 32) :
    val_main_v40 (F := Ideal) x0 (ix1 b) = maxOver (rowMean (slice x0 b)) := by
  unfold val_main_v40
  rw [Host.reduce_eq_fold_single FloatOps.maximumf _ _ reducesTo_S32x64_S32_d1 (by decide) h_S_]
  unfold maxOver negInf
  refine Finset.fold_congr fun k _ => ?_
  rw [Function.comp_apply, lift_vec b k]
  exact v11_apply x0 b k

/-- What is subtracted: the maximum of -∞ and the vector's maximum, the same at every entry. -/
theorem v44_apply (x0 : FVec Ideal S32x256x64x64 .f32) (b : Fin 32) (j : Fin 64) :
    val_main_v44 (F := Ideal) x0 (ix2 b j) = max negInf (maxOver (rowMean (slice x0 b))) := by
  rw [val_main_v44_apply, val_main_v43_apply, show idx_main_v43 (idx_main_v44 (ix2 b j)) = ix1 b from by idx1,
    val_main_v42_apply, val_main_v41_apply, val_main_cst_12_apply, v40_apply, Ideal.maximumf_def, Ideal.ofBits_def]
  rfl

theorem v46_apply (x0 : FVec Ideal S32x256x64x64 .f32) (b : Fin 32) (j : Fin 64) :
    val_main_v46 (F := Ideal) x0 (ix2 b j) = Ideal.exp (shifted (rowMean (slice x0 b)) j) := by
  rw [val_main_v46_apply, val_main_v45_apply, v11_apply, v44_apply, Ideal.hostUnary_exp_def, Ideal.subf_def]
  rfl

/-- The divisor: zero plus the sum of the 64 exponentials, the same at every entry. -/
theorem v49_apply (x0 : FVec Ideal S32x256x64x64 .f32) (b : Fin 32) (j : Fin 64) :
    val_main_v49 (F := Ideal) x0 (ix2 b j) = ∑ k : Fin 64, Ideal.exp (shifted (rowMean (slice x0 b)) k) := by
  rw [val_main_v49_apply, val_main_v48_apply, show idx_main_v48 (idx_main_v49 (ix2 b j)) = ix1 b from by idx1,
    val_main_v47_apply, val_main_cst_13_apply, Ideal.ofBits_def, ofBits_zero, zero_add]
  refine Finset.sum_congr rfl fun k _ => ?_
  rw [show idx_main_v47 (ix1 b) k = ix2 b k from by idx2]
  exact v46_apply x0 b k

theorem v50_apply (x0 : FVec Ideal S32x256x64x64 .f32) (b : Fin 32) (j : Fin 64) :
    val_main_v50 (F := Ideal) x0 (ix2 b j) = softmax (rowMean (slice x0 b)) j := by
  rw [val_main_v50_apply, v46_apply, v49_apply, Ideal.hostDivf_def]
  rfl

/-! ## The row gate: the two products with weight columns, and the two tanh rows -/

theorem v51_apply (x0 : FVec Ideal S32x256x64x64 .f32) (x7 : FVec Ideal S64x1 .f32) (b : Fin 32) :
    val_main_v51 (F := Ideal) x0 x7 (ix2 b (0 : Fin 1)) = dot (rowMean (slice x0 b)) (colVec x7) := by
  rw [val_main_v51_apply]
  unfold dot colVec
  refine Finset.sum_congr rfl fun k _ => ?_
  rw [show lidx_main_v51 (ix2 b (0 : Fin 1)) k = ix2 b k from by idx2,
    show ridx_main_v51 (ix2 b (0 : Fin 1)) k = ix2 k (0 : Fin 1) from by idx2, v11_apply]

theorem v52_apply (x0 : FVec Ideal S32x256x64x64 .f32) (x8 : FVec Ideal S64x1 .f32) (b : Fin 32) :
    val_main_v52 (F := Ideal) x0 x8 (ix2 b (0 : Fin 1)) = dot (rowMax (slice x0 b)) (colVec x8) := by
  rw [val_main_v52_apply]
  unfold dot colVec
  refine Finset.sum_congr rfl fun k _ => ?_
  rw [show lidx_main_v52 (ix2 b (0 : Fin 1)) k = ix2 b k from by idx2,
    show ridx_main_v52 (ix2 b (0 : Fin 1)) k = ix2 k (0 : Fin 1) from by idx2, v8_apply]

theorem v57_apply (x0 : FVec Ideal S32x256x64x64 .f32) (x7 : FVec Ideal S64x1 .f32) (x10 : FVec Ideal S1x64 .f32)
    (b : Fin 32) (j : Fin 64) :
    val_main_v57 (F := Ideal) x0 x7 x10 (ix2 b j)
      = Ideal.tanh (dot (rowMean (slice x0 b)) (colVec x7) * softmax (rowMean (slice x0 b)) j + rowVec x10 j) := by
  rw [val_main_v57_apply, val_main_v56_apply, val_main_v54_apply, val_main_v53_apply, val_main_v55_apply,
    show idx_main_v53 (ix2 b j) = ix2 b (0 : Fin 1) from by idx2,
    show idx_main_v55 (ix2 b j) = ix2 (0 : Fin 1) j from by idx2,
    v51_apply, v50_apply, Ideal.hostUnary_tanh_def, Ideal.addf_def, Ideal.mulf_def]
  rfl

theorem v62_apply (x0 : FVec Ideal S32x256x64x64 .f32) (x8 : FVec Ideal S64x1 .f32) (x11 : FVec Ideal S1x64 .f32)
    (b : Fin 32) (j : Fin 64) :
    val_main_v62 (F := Ideal) x0 x8 x11 (ix2 b j)
      = Ideal.tanh (dot (rowMax (slice x0 b)) (colVec x8) * softmax (rowMean (slice x0 b)) j + rowVec x11 j) := by
  rw [val_main_v62_apply, val_main_v61_apply, val_main_v59_apply, val_main_v58_apply, val_main_v60_apply,
    show idx_main_v58 (ix2 b j) = ix2 b (0 : Fin 1) from by idx2,
    show idx_main_v60 (ix2 b j) = ix2 (0 : Fin 1) j from by idx2,
    v52_apply, v50_apply, Ideal.hostUnary_tanh_def, Ideal.addf_def, Ideal.mulf_def]
  rfl

/-! ## The row gate -/

theorem v63_apply (x0 : FVec Ideal S32x256x64x64 .f32) (x8 x9 : FVec Ideal S64x1 .f32) (x11 : FVec Ideal S1x64 .f32)
    (b : Fin 32) :
    val_main_v63 (F := Ideal) x0 x8 x9 x11 (ix2 b (0 : Fin 1))
      = dot (fun k => Ideal.tanh (dot (rowMax (slice x0 b)) (colVec x8) * softmax (rowMean (slice x0 b)) k + rowVec x11 k))
          (colVec x9) := by
  rw [val_main_v63_apply]
  unfold dot colVec
  refine Finset.sum_congr rfl fun k _ => ?_
  rw [show lidx_main_v63 (ix2 b (0 : Fin 1)) k = ix2 b k from by idx2,
    show ridx_main_v63 (ix2 b (0 : Fin 1)) k = ix2 k (0 : Fin 1) from by idx2, v62_apply]
  rfl

theorem v67_apply (x0 : FVec Ideal S32x256x64x64 .f32) (x7 x8 x9 : FVec Ideal S64x1 .f32)
    (x10 x11 x12 : FVec Ideal S1x64 .f32) (b : Fin 32) (j : Fin 64) :
    val_main_v67 (F := Ideal) x0 x7 x8 x9 x10 x11 x12 (ix2 b j)
      = gate (rowMean (slice x0 b)) (rowMax (slice x0 b)) (colVec x7) (colVec x8) (colVec x9)
          (rowVec x10) (rowVec x11) (rowVec x12) j := by
  rw [val_main_v67_apply, val_main_v65_apply, val_main_v64_apply, val_main_v66_apply,
    show idx_main_v64 (ix2 b j) = ix2 b (0 : Fin 1) from by idx2,
    show idx_main_v66 (ix2 b j) = ix2 (0 : Fin 1) j from by idx2,
    v63_apply, v57_apply, Ideal.addf_def, Ideal.mulf_def]
  rfl

end Cert.ReferenceIdeal.RefValue

end
-- ==== Proof.RefValue.lean ====
/-
  The reference's result, index by index, is the specification's `out` on the batch's slice.

  The row gate, repeated along `w`, times the column gate, repeated along `h`, goes under `tanh`; the word of one is
  added; the sum, repeated over the 256 channels, multiplies the input.
-/
import proofs.«106315_j1580547973359_1_alg».proof.Proof.RefGate
import proofs.«106315_j1580547973359_1_alg».proof.Proof.Gen.ReferenceIdeal.Read
import proofs.«106315_j1580547973359_1_alg».proof.Proof.Spec
import Idealize.ShloMosaic.Lib.ValueIdx
import Idealize.ShloMosaic.PureOps.Ideal

noncomputable section

namespace Cert.ReferenceIdeal.RefValue

open Idealize.ShloMosaic Idealize.ShloMosaic.ValueIdx Cert.ReferenceIdeal Cert.ReferenceIdeal.Gen Cert.ReferenceIdeal.Read Cert.SpatialGate

/-- Two indices of rank two are equal when their coordinates are. -/
local macro "idx2" : tactic =>
  `(tactic| exact funext fun a => Fin.ext (by match a with | ⟨0, _⟩ => rfl | ⟨1, _⟩ => rfl))
/-- Two indices of rank three are equal when their coordinates are. -/
local macro "idx3" : tactic =>
  `(tactic| exact funext fun a => Fin.ext (by match a with | ⟨0, _⟩ => rfl | ⟨1, _⟩ => rfl | ⟨2, _⟩ => rfl))

/-- The product under the last tanh: the row gate at `h` times the column gate at `w`. -/
theorem v72_apply (x0 : FVec Ideal S32x256x64x64 .f32) (x1 x2 x3 : FVec Ideal S64x1 .f32) (x4 x5 x6 : FVec Ideal S1x64 .f32)
    (x7 x8 x9 : FVec Ideal S64x1 .f32) (x10 x11 x12 : FVec Ideal S1x64 .f32) (b : Fin 32) (h w : Fin 64) :
    val_main_v72 (F := Ideal) x0 x1 x2 x3 x4 x5 x6 x7 x8 x9 x10 x11 x12 (ix3 b h w)
      = gate (rowMean (slice x0 b)) (rowMax (slice x0 b)) (colVec x7) (colVec x8) (colVec x9)
            (rowVec x10) (rowVec x11) (rowVec x12) h
          * gate (colMean (slice x0 b)) (colMax (slice x0 b)) (colVec x1) (colVec x2) (colVec x3)
              (rowVec x4) (rowVec x5) (rowVec x6) w := by
  rw [val_main_v72_apply, val_main_v70_apply, val_main_v68_apply, val_main_v71_apply, val_main_v69_apply,
    show idx_main_v68 (idx_main_v70 (ix3 b h w)) = ix2 b h from by idx2,
    show idx_main_v69 (idx_main_v71 (ix3 b h w)) = ix2 b w from by idx2,
    v67_apply, v39_apply, Ideal.mulf_def]

/-- The reference's result at `(b, c, h, w)` is the specification's, on batch `b`'s slice. -/
theorem ref_apply (x0 : FVec Ideal S32x256x64x64 .f32) (x1 x2 x3 : FVec Ideal S64x1 .f32) (x4 x5 x6 : FVec Ideal S1x64 .f32)
    (x7 x8 x9 : FVec Ideal S64x1 .f32) (x10 x11 x12 : FVec Ideal S1x64 .f32) (b : Fin 32) (c : Fin 256) (h w : Fin 64) :
    val_main_v78 (F := Ideal) x0 x1 x2 x3 x4 x5 x6 x7 x8 x9 x10 x11 x12 (ix4 b c h w)
      = out (slice x0 b) (colVec x1) (colVec x2) (colVec x3) (rowVec x4) (rowVec x5) (rowVec x6)
          (colVec x7) (colVec x8) (colVec x9) (rowVec x10) (rowVec x11) (rowVec x12) c h w := by
  rw [val_main_v78_apply, val_main_v77_apply, val_main_v76_apply, val_main_v74_apply, val_main_v75_apply,
    val_main_cst_14_apply, val_main_v73_apply,
    show idx_main_v74 (idx_main_v77 (ix4 b c h w)) = ix3 b h w from by idx3,
    v72_apply, Ideal.hostUnary_tanh_def, Ideal.addf_def, Ideal.mulf_def, Ideal.ofBits_def]
  rfl

end Cert.ReferenceIdeal.RefValue

end
-- ==== Proof.lean ====
/-
  Kernel and reference compute one function.

  The kernel is one fused pass over the batches of x : f32[32, 256, 64, 64]: per batch it takes the maximum and the
  mean over the 256 channels as 64 × 64 tables, the maximum and mean of those down the columns and along the rows,
  forms a gate on each of the two 64-vectors of statistics (a softmax of the means, two dot products with weight
  columns, tanh, a third dot product, a bias), and stores x * (tanh (gateH[h] * gateW[w]) + 1). The reference
  computes the same on whole arrays with jnp. Index by index on the extended reals the two are the function
  `SpatialGate.G` of the thirteen inputs (Proof/Spec.lean):
    * the kernel's stored block at a point is `G`'s block (Proof/KerStats.lean, KerGate.lean, KerValue.lean), and the
      32 blocks cover the array (Proof/KerArray.lean, over the generated blockwise value leg);
    * the reference's composed term is `G` (Proof/RefStats.lean, RefGate.lean, RefValue.lean, over the generated
      read-at-an-index lemmas).
  The one place the two spellings differ is the channel mean, a sum times 2⁻⁸ in the kernel and a sum divided by 256 in the
  reference: equal on every extended real, so the precondition is never opened. The kernel's idealization rewrote
  nothing, so `preserves` is `True`. The frames are the generated frame certificates; the reference's is its generated
  run with the result dropped.
-/
import proofs.«106315_j1580547973359_1_alg».proof.Defs
import proofs.«106315_j1580547973359_1_alg».proof.Proof.Gen.Kernel
import proofs.«106315_j1580547973359_1_alg».proof.Proof.Gen.Kernel.Skeleton
import proofs.«106315_j1580547973359_1_alg».proof.Proof.Gen.Kernel.Launch
import proofs.«106315_j1580547973359_1_alg».proof.Proof.Gen.Kernel.Points
import proofs.«106315_j1580547973359_1_alg».proof.Proof.Gen.Kernel.Frame
import proofs.«106315_j1580547973359_1_alg».proof.Proof.Gen.KernelIdeal
import proofs.«106315_j1580547973359_1_alg».proof.Proof.Gen.KernelIdeal.Skeleton
import proofs.«106315_j1580547973359_1_alg».proof.Proof.Gen.KernelIdeal.Launch
import proofs.«106315_j1580547973359_1_alg».proof.Proof.Gen.KernelIdeal.Points
import proofs.«106315_j1580547973359_1_alg».proof.Proof.Gen.KernelIdeal.Frame
import proofs.«106315_j1580547973359_1_alg».proof.Proof.Gen.ReferenceIdeal
import proofs.«106315_j1580547973359_1_alg».proof.Proof.Gen.Pre_finite_inputs
import proofs.«106315_j1580547973359_1_alg».proof.Proof.Gen.KernelIdeal.Value
import proofs.«106315_j1580547973359_1_alg».proof.Proof.Gen.ReferenceIdeal.Run
import proofs.«106315_j1580547973359_1_alg».proof.Proof.Gen.ReferenceIdeal.Read
import proofs.«106315_j1580547973359_1_alg».proof.Proof.KerArray
import proofs.«106315_j1580547973359_1_alg».proof.Proof.RefValue
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The reference's composed term is `G`: at every index both are the specification's result for that batch's slice. -/
theorem ref_eq_G (x0 : FVec Ideal Cert.ReferenceIdeal.S32x256x64x64 .f32) (x1 x2 x3 : FVec Ideal Cert.ReferenceIdeal.S64x1 .f32)
    (x4 x5 x6 : FVec Ideal Cert.ReferenceIdeal.S1x64 .f32) (x7 x8 x9 : FVec Ideal Cert.ReferenceIdeal.S64x1 .f32)
    (x10 x11 x12 : FVec Ideal Cert.ReferenceIdeal.S1x64 .f32) :
    Cert.ReferenceIdeal.Read.val_main_v78 (F := Ideal) x0 x1 x2 x3 x4 x5 x6 x7 x8 x9 x10 x11 x12 = Cert.SpatialGate.G x0 x1 x2 x3 x4 x5 x6 x7 x8 x9 x10 x11 x12 := by
  funext i
  obtain ⟨b, c, h, w, rfl⟩ : ∃ (b : Fin 32) (c : Fin 256) (h w : Fin 64), i = ix4 b c h w := ⟨i 0, i 1, i 2, i 3, eq_ix4 i⟩
  rw [Cert.SpatialGate.G_apply]
  exact Cert.ReferenceIdeal.RefValue.ref_apply x0 x1 x2 x3 x4 x5 x6 x7 x8 x9 x10 x11 x12 b c h w

/-- From memories that agree on the thirteen inputs both runs end with the result array at `G` of the inputs. -/
theorem algebraic : Cert.algebraic_KernelIdeal_ReferenceIdeal := by
  intro m ρ m' ρ' _ hagree
  refine ⟨_, Cert.KernelIdeal.KerValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12⟩ := hagree c
  rw [Cert.ReferenceIdeal.Read.val_main_v78_eq, ref_eq_G, a0, a1, a2, a3, a4, a5, a6, a7, a8, a9, a10, a11, a12]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
